-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 4294867296#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S64x64 .f32) (main_arg9 : FVec F S64 .f32) (main_arg10 : FVec F S64x64 .f32) (main_arg11 : FVec F S1x64 .f32) (main_arg12 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg1 main_arg12 main_v48 main_v49 main_v50

def fn_part1 {F : FTy → Type} [FloatOps F] (main_arg1 : IVec S2x1600000 32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x1 : Shape := ⟨2, ![1, 1]⟩
abbrev S1600000x128 : Shape := ⟨2, ![1600000, 128]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S64x1 : Shape := ⟨2, ![64, 1]⟩

abbrev nBuf : Space → Nat
  | .hbm => 135
  | .vmem => 27
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x128, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S1x64, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1, .i32⟩
  | 39 => ⟨S_, .i32⟩
  | 40 => ⟨S1600000x1, .i32⟩
  | 41 => ⟨S1600000x1, .i1⟩
  | 42 => ⟨S1x1, .i32⟩
  | 43 => ⟨S1600000x1, .i32⟩
  | 44 => ⟨S1600000x1, .i1⟩
  | 45 => ⟨S1600000x1, .i1⟩
  | 46 => ⟨S_, .i1⟩
  | 47 => ⟨S1600000, .i1⟩
  | 48 => ⟨S1600000x128, .f32⟩
  | 49 => ⟨S1600000x128, .i1⟩
  | 50 => ⟨S_, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x128, .f32⟩
  | 58 => ⟨S100000x128, .f32⟩
  | 59 => ⟨S128x64, .f32⟩
  | 60 => ⟨S128x64, .f32⟩
  | 61 => ⟨S1x64, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1, .i32⟩
  | 72 => ⟨S_, .i32⟩
  | 73 => ⟨S1600000x1, .i32⟩
  | 74 => ⟨S1600000x1, .i1⟩
  | 75 => ⟨S1x1, .i32⟩
  | 76 => ⟨S1600000x1, .i32⟩
  | 77 => ⟨S1600000x1, .i1⟩
  | 78 => ⟨S1600000x1, .i1⟩
  | 79 => ⟨S_, .i1⟩
  | 80 => ⟨S1600000, .i1⟩
  | 81 => ⟨S1600000x64, .f32⟩
  | 82 => ⟨S1600000x64, .i1⟩
  | 83 => ⟨S_, .f32⟩
  | 84 => ⟨S1600000x64, .f32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000x64, .f32⟩
  | 91 => ⟨S100000x64, .f32⟩
  | 92 => ⟨S64x64, .f32⟩
  | 93 => ⟨S64x64, .f32⟩
  | 94 => ⟨S1x64, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1, .i32⟩
  | 105 => ⟨S_, .i32⟩
  | 106 => ⟨S1600000x1, .i32⟩
  | 107 => ⟨S1600000x1, .i1⟩
  | 108 => ⟨S1x1, .i32⟩
  | 109 => ⟨S1600000x1, .i32⟩
  | 110 => ⟨S1600000x1, .i1⟩
  | 111 => ⟨S1600000x1, .i1⟩
  | 112 => ⟨S_, .i1⟩
  | 113 => ⟨S1600000, .i1⟩
  | 114 => ⟨S1600000x64, .f32⟩
  | 115 => ⟨S1600000x64, .i1⟩
  | 116 => ⟨S_, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x64, .f32⟩
  | 124 => ⟨S100000x64, .f32⟩
  | 125 => ⟨S64x64, .f32⟩
  | 126 => ⟨S64x64, .f32⟩
  | 127 => ⟨S1x64, .f32⟩
  | _ => ⟨S100000x128, .f32⟩

abbrev hbmTy0_1 (i : Nat) : BufTy := match i % 128 with
  | 0 => ⟨S100000x64, .f32⟩
  | 1 => ⟨S64x1, .f32⟩
  | 2 => ⟨S100000x1, .f32⟩
  | 3 => ⟨S1x1, .f32⟩
  | 4 => ⟨S100000x1, .f32⟩
  | 5 => ⟨S100000x1, .f32⟩
  | 6 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v13 : Ref sig .tc := ⟨.hbm, 52, rfl⟩
abbrev main_cst_3 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v23 : Ref sig .tc := ⟨.hbm, 85, rfl⟩
abbrev main_cst_4 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v33 : Ref sig .tc := ⟨.hbm, 118, rfl⟩
abbrev main_cst_5 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S1x64_S64x1_1_0 : S1x64.Transposes [1, 0] S64x1
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S100000x64_S64x1_S100000x1_1_0_0_1_n_n_wf : DotDims.WF S100000x64 S64x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S100000x64 : Shape := ⟨2, ![100000, 64]⟩
abbrev S1600000x64 : Shape := ⟨2, ![1600000, 64]⟩
abbrev S64x1 : Shape := ⟨2, ![64, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S128x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S128x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S64x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S64x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S64x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S64x1, .f32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.SrcOk.lean ====
/-
  The range condition on the source indices, stated over the reference's own source-index vector.
-/
import proofs.«421982_j91018946937012_1_alg».proof.Proof.Gen.ReferenceIdeal.Read
import Idealize.ShloMosaic.Lib.ValueIdx

noncomputable section

namespace Cert.KernelIdeal.KVal

open Idealize.ShloMosaic Idealize.ShloMosaic.ValueIdx

/-- Every source index (row 0 of the edge list), read as a signed integer, lies in `[-100000, 100000)`: the range in
    which indexing an axis of length 100000 is defined, a negative index counting from the end. -/
def SrcOk (a1 : (⟨Cert.ReferenceIdeal.S2x1600000, .i32⟩ : BufTy).Contents (Elt Ideal)) : Prop :=
  ∀ t : Fin 1600000, -((100000 : Nat) : Int) ≤ (Cert.ReferenceIdeal.Read.val_main_v1 (F := Ideal) a1 (ix1 t)).toInt
    ∧ (Cert.ReferenceIdeal.Read.val_main_v1 (F := Ideal) a1 (ix1 t)).toInt < ((100000 : Nat) : Int)

end Cert.KernelIdeal.KVal

end
-- ==== Proof.LibTakeWrap.lean ====
/-
  A row take whose out-of-range rows are filled, for indices that wrap.

  Taking rows `g[t]` through an index vector `a` is printed as: an entry of `a` below zero is first wrapped by adding
  the axis length `N`; the wrapped entry is laid out as a `[T, 1]` column; a one-bit mask says, row by row, whether
  the column's entry lies in `[0, N - 1]` (two signed comparisons, joined by `and`, reduced by `and` along the
  column's unit axis); and a select keeps the gathered row where the mask is set and puts a fill value elsewhere.

  When every entry of `a` lies in `[-N, N)` the wrapped entry lies in `[0, N)`: for `a[t] < 0` it is `a[t] + N`,
  which is in `[0, N)` because `a[t] ≥ -N`, and otherwise it is `a[t]` itself. So both range tests hold in every row,
  the mask is all ones, and the select returns the gathered rows unchanged, whatever they and the fill are. This file
  proves that for any sizes and any element type, every shape fact an arbitrary hypothesis.
-/
import Idealize.ShloMosaic.Lib.ValueIdx
import Idealize.ShloMosaic.Lib.StableHlo.Predicate
import Idealize.ShloMosaic.Lib.ReduceAll

noncomputable section

namespace Cert.LibTakeWrap

open Idealize.ShloMosaic Idealize.ShloMosaic.ValueIdx

/-! ## Words: the signed reading of a wrapped index -/

/-- Adding the word of `N` to a word whose signed reading lies in `[-N, 0)` adds `N` to that reading: the sum lies in
    `[0, N)`, inside the signed range, so the 32-bit addition does not wrap past it. -/
theorem toInt_add_of_neg {x wN : BitVec 32} {N : Nat} (hN : N < 2 ^ 31) (hwN : wN.toNat = N)
    (hlo : -(N : Int) ≤ x.toInt) (hneg : x.toInt < 0) : (x + wN).toInt = x.toInt + N := by
  have hx := BitVec.toInt_eq_toNat_cond x
  have hs := BitVec.toInt_eq_toNat_cond (x + wN)
  have hadd : (x + wN).toNat = (x.toNat + wN.toNat) % 2 ^ 32 := BitVec.toNat_add x wN
  have hxlt := x.isLt
  split at hx <;> split at hs <;> omega

/-- The wrap on one word: an index in `[-N, N)`, with `N` added when it is below zero, lies in `[0, N)`. -/
theorem wrap_range {x wN : BitVec 32} {N : Nat} (hN : N < 2 ^ 31) (hwN : wN.toNat = N)
    (hlo : -(N : Int) ≤ x.toInt) (hhi : x.toInt < N) :
    0 ≤ (Scalar.select (IntOp.cmpi .slt x 0#32) (IntOp.addi x wN) x).toInt
      ∧ (Scalar.select (IntOp.cmpi .slt x 0#32) (IntOp.addi x wN) x).toInt < N := by
  have hz : (0#32 : BitVec 32).toInt = 0 := by decide
  by_cases hs : IntOp.cmpi .slt x 0#32 = 1#1
  · -- below zero: the select takes the sum
    have hneg : x.toInt < 0 := by have := IntOp.cmpi_slt.mp hs; omega
    rw [hs, select_one]
    show 0 ≤ (x + wN).toInt ∧ (x + wN).toInt < N
    rw [toInt_add_of_neg hN hwN hlo hneg]
    omega
  · -- at least zero: the select takes the index itself
    have hge : 0 ≤ x.toInt := by
      have hnot : ¬ x.toInt < (0#32 : BitVec 32).toInt := fun h => hs (IntOp.cmpi_slt.mpr h)
      omega
    rw [eq_zero_of_ne_one hs, select_zero]
    exact ⟨hge, hhi⟩

/-- Both range tests hold for a word whose signed reading lies in `[0, N)`, `wM` being the word of `N - 1`. -/
theorem range_tests {y wM : BitVec 32} {N : Nat} (hN : N < 2 ^ 31) (hM : wM.toNat = N - 1)
    (h0 : 0 ≤ y.toInt) (h1 : y.toInt < N) :
    IntOp.andi (IntOp.cmpi .sge y 0#32) (IntOp.cmpi .sle y wM) = 1#1 := by
  have hz : (0#32 : BitVec 32).toInt = 0 := by decide
  have hm : wM.toInt = (wM.toNat : Int) := BitVec.toInt_eq_toNat_of_lt (by omega)
  refine IntOp.andi_eq_one.mpr ⟨IntOp.cmpi_sge.mpr (by omega), IntOp.cmpi_sle.mpr (by omega)⟩

/-! ## A reduction by `and` of an array of ones -/

/-- A left fold by `and` from 1 over terms that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | b :: l, h => by
    have hb : IntOp.andi 1#1 (f b) = 1#1 := by rw [h b List.mem_cons_self]; decide
    rw [List.foldl_cons, hb]
    exact foldl_andi_of_all_one f l fun n hn => h n (List.mem_cons_of_mem _ hn)

/-- A reduce by `and`, from an initial value 1, of an array whose every element is 1 is 1 at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_all_one x _ fun n _ => hx n

section Take
variable {α : Type} {N T C : Nat}
  (hbT : (⟨0, ![]⟩ : Shape).BroadcastsInDim ⟨1, ![T]⟩ ![])
  (hcol : (⟨1, ![T]⟩ : Shape).BroadcastsInDim ⟨2, ![T, 1]⟩ ![0])
  (hbT1 : (⟨0, ![]⟩ : Shape).BroadcastsInDim ⟨2, ![T, 1]⟩ ![])
  (hb11 : (⟨1, ![1]⟩ : Shape).BroadcastsInDim ⟨2, ![1, 1]⟩ ![1])
  (hb11T1 : (⟨2, ![1, 1]⟩ : Shape).BroadcastsInDim ⟨2, ![T, 1]⟩ ![0, 1])
  (hred : (⟨2, ![T, 1]⟩ : Shape).ReducesTo [1] ⟨1, ![T]⟩)
  (h0 : 0 < (⟨0, ![]⟩ : Shape).numel)
  (hbTC : (⟨1, ![T]⟩ : Shape).BroadcastsInDim ⟨2, ![T, C]⟩ ![0])
  (wN wM : BitVec 32) (a : IVec ⟨1, ![T]⟩ 32)

/-- The index column as printed: an entry of `a` below zero wrapped by adding the word `wN`, then laid out as `[T, 1]`. -/
abbrev idxCol : IVec ⟨2, ![T, 1]⟩ 32 :=
  broadcastInDim ⟨2, ![T, 1]⟩ ![0] hcol
    (select (cmpi .slt a (broadcastInDim ⟨1, ![T]⟩ ![] hbT (constantI ⟨0, ![]⟩ 32 0#32)))
      (addi a (broadcastInDim ⟨1, ![T]⟩ ![] hbT (constantI ⟨0, ![]⟩ 32 wN))) a)

/-- The range mask as printed: the column's entry is at least the zero word and at most the word `wM`, both signed. -/
abbrev okCol : IVec ⟨2, ![T, 1]⟩ 1 :=
  andi (cmpi .sge (idxCol hbT hcol wN a) (broadcastInDim ⟨2, ![T, 1]⟩ ![] hbT1 (constantI ⟨0, ![]⟩ 32 0#32)))
    (cmpi .sle (idxCol hbT hcol wN a)
      (broadcastInDim ⟨2, ![T, 1]⟩ ![0, 1] hb11T1 (broadcastInDim ⟨2, ![1, 1]⟩ ![1] hb11 (constantI ⟨1, ![1]⟩ 32 wM))))

/-- With every index in `[-N, N)` the range mask is 1 at every row: the column's entry there is the wrap of some `a[t]`,
    which lies in `[0, N)`. -/
theorem okCol_apply (ha : ∀ t : Fin T, -(N : Int) ≤ (a (ix1 t)).toInt ∧ (a (ix1 t)).toInt < N)
    (hN : N < 2 ^ 31) (hwN : wN.toNat = N) (hM : wM.toNat = N - 1) (i : (⟨2, ![T, 1]⟩ : Shape).Idx) :
    okCol hbT hcol hbT1 hb11 hb11T1 wN wM a i = 1#1 := by
  -- at any position of `a`: the wrapped word passes both tests
  have key : ∀ k : (⟨1, ![T]⟩ : Shape).Idx,
      IntOp.andi (IntOp.cmpi .sge (Scalar.select (IntOp.cmpi .slt (a k) 0#32) (IntOp.addi (a k) wN) (a k)) 0#32)
        (IntOp.cmpi .sle (Scalar.select (IntOp.cmpi .slt (a k) 0#32) (IntOp.addi (a k) wN) (a k)) wM) = 1#1 := by
    intro k
    obtain ⟨t, rfl⟩ : ∃ t, k = ix1 t := ⟨k 0, eq_ix1 k⟩
    obtain ⟨h0, h1⟩ := wrap_range hN hwN (ha t).1 (ha t).2
    exact range_tests hN hM h0 h1
  -- the column at `i` reads the wrapped vector at one position; the compared constants read everywhere the same
  exact key _

/-- THE FILLED TAKE IS THE PLAIN ONE: with every index in `[-N, N)`, `wN` the word of `N` and `wM` the word of `N - 1`,
    the mask is all ones and the select returns the gathered rows `g`; the fill is never used. -/
theorem select_mask_eq
    (ha : ∀ t : Fin T, -(N : Int) ≤ (a (ix1 t)).toInt ∧ (a (ix1 t)).toInt < N)
    (hN : N < 2 ^ 31) (hwN : wN.toNat = N) (hM : wM.toNat = N - 1)
    (g fill : (⟨2, ![T, C]⟩ : Shape).Idx → α) :
    select (broadcastInDim ⟨2, ![T, C]⟩ ![0] hbTC
        (Host.reduce IntOp.andi (okCol hbT hcol hbT1 hb11 hb11T1 wN wM a) (constantI ⟨0, ![]⟩ 1 1#1) hred h0)) g fill
      = g := by
  funext i
  -- the mask at `i` is the reduced vector at one position, and that vector is 1 everywhere
  have hmask : broadcastInDim ⟨2, ![T, C]⟩ ![0] hbTC
      (Host.reduce IntOp.andi (okCol hbT hcol hbT1 hb11 hb11T1 wN wM a) (constantI ⟨0, ![]⟩ 1 1#1) hred h0) i = 1#1 :=
    reduce_andi_of_all_one _ _ hred h0 rfl (okCol_apply hbT hcol hbT1 hb11 hb11T1 wN wM a ha hN hwN hM) _
  rw [select_apply, hmask, select_one]

end Take

end Cert.LibTakeWrap

end
-- ==== Proof.KTake.lean ====
/-
  The kernel program's row take, as one function of the table and the index vector.

  The program takes rows of a `[100000, C]` table through the source-index vector (1600000 entries): an entry below
  zero has 100000 added; a row mask says whether the wrapped entry lies in `[0, 99999]`; the rows are gathered at the
  wrapped entries; and a select keeps the gathered row where the mask is set and puts a fill elsewhere. With every entry
  in `[-100000, 100000)` the mask is all ones, so the take is the gather at the wrapped entries, and that gather is the
  reference's own: the reference wraps the same way and gathers without a mask.
-/
import proofs.«421982_j91018946937012_1_alg».proof.Proof.Gen.KernelIdeal.Frame
import proofs.«421982_j91018946937012_1_alg».proof.Proof.Gen.ReferenceIdeal.Read
import proofs.«421982_j91018946937012_1_alg».proof.Proof.LibTakeWrap
import proofs.«421982_j91018946937012_1_alg».proof.Proof.SrcOk
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v12 val_main_v19 val_main_v24 val_main_v25 val_main_v30 val_main_v33
  val_main_v40 val_main_v45 val_main_v46 val_main_v51 val_main_v54 val_main_v61 val_main_v66 val_main_v67 val_main_v72 val_main_v75 val_main_v81)

/-- Contents carried to a buffer's own type and back are unchanged. -/
theorem ofBuf_toBuf {T : BufTy} (x : TRef sig T) (v : T.Contents (Elt Ideal)) : x.ofBuf (x.toBuf v) = v := by
  obtain ⟨r, rfl, _, _⟩ := x
  rfl

/-- The wrapped index column: an entry of `a` below zero has 100000 added; laid out as a `[1600000, 1]` column. -/
def wrapCol (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The row mask: the wrapped entry lies in `[0, 99999]`. -/
def okVec (a : IVec S1600000 32) : IVec S1600000 1 :=
  Host.reduce IntOp.andi
    (andi (cmpi .sge (wrapCol a) (broadcastInDim S1600000x1 ![] bcast_S_S1600000x1 (constantI S_ 32 0#32)))
      (cmpi .sle (wrapCol a) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The filled take of 128-column rows. -/
def takeFill128 (x : FVec Ideal S100000x128 .f32) (a : IVec S1600000 32) : FVec Ideal S1600000x128 .f32 :=
  select (broadcastInDim S1600000x128 ![0] bcast_S1600000_S1600000x128_0 (okVec a))
    (Host.gather gather_S100000x128_S1600000x1_S1600000x128_1_0_n_n_0_1_1128 x (wrapCol a))
    (broadcastInDim S1600000x128 ![] bcast_S_S1600000x128 (constant (F := Ideal) S_ .f32 0x7FC00000#32))

/-- The filled take of 64-column rows. -/
def takeFill64 (x : FVec Ideal S100000x64 .f32) (a : IVec S1600000 32) : FVec Ideal S1600000x64 .f32 :=
  select (broadcastInDim S1600000x64 ![0] bcast_S1600000_S1600000x64_0 (okVec a))
    (Host.gather gather_S100000x64_S1600000x1_S1600000x64_1_0_n_n_0_1_164 x (wrapCol a))
    (broadcastInDim S1600000x64 ![] bcast_S_S1600000x64 (constant (F := Ideal) S_ .f32 0x7FC00000#32))

/-- With every index in range the filled take of 128-column rows is the gather at the wrapped indices. -/
theorem takeFill128_eq (x : FVec Ideal S100000x128 .f32) (a : IVec S1600000 32)
    (ha : ∀ t : Fin 1600000, -((100000 : Nat) : Int) ≤ (a (ix1 t)).toInt ∧ (a (ix1 t)).toInt < ((100000 : Nat) : Int)) :
    takeFill128 x a = Host.gather gather_S100000x128_S1600000x1_S1600000x128_1_0_n_n_0_1_1128 x (wrapCol a) := by
  unfold takeFill128 okVec wrapCol
  exact Cert.LibTakeWrap.select_mask_eq (N := 100000) (T := 1600000) (C := 128) _ _ _ _ _ _ _ _ _ _ a ha (by decide) rfl rfl _ _

/-- With every index in range the filled take of 64-column rows is the gather at the wrapped indices. -/
theorem takeFill64_eq (x : FVec Ideal S100000x64 .f32) (a : IVec S1600000 32)
    (ha : ∀ t : Fin 1600000, -((100000 : Nat) : Int) ≤ (a (ix1 t)).toInt ∧ (a (ix1 t)).toInt < ((100000 : Nat) : Int)) :
    takeFill64 x a = Host.gather gather_S100000x64_S1600000x1_S1600000x64_1_0_n_n_0_1_164 x (wrapCol a) := by
  unfold takeFill64 okVec wrapCol
  exact Cert.LibTakeWrap.select_mask_eq (N := 100000) (T := 1600000) (C := 64) _ _ _ _ _ _ _ _ _ _ a ha (by decide) rfl rfl _ _

/-- The first layer's gather is the reference's: the same wrap of the same source-index vector, the same gather. -/
theorem take128_ref (a0 : FVec Ideal S100000x128 .f32) (a1 : IVec S2x1600000 32) (hs : SrcOk a1) :
    takeFill128 a0 (val_main_v1 (F := Ideal) a1) = val_main_v19 (F := Ideal) a0 a1 :=
  (takeFill128_eq a0 _ hs).trans rfl

end Cert.KernelIdeal.KVal

end
-- ==== Proof.KStage0.lean ====
/-
  The contents of the buffers when the first kernel region is entered, as functions of the argument arrays.

  The host operations before the region compute, from the edge list, the source and destination index vectors and the
  inverse degree; take the source rows of the features (with every source index in range the filled take is the
  reference's gather); sum the taken rows into their destination rows and scale by the inverse degree; and transpose the
  two weight matrices. Each buffer is read back through the operations that wrote it and meets the reference's own stage
  of the same operations.
-/
import proofs.«421982_j91018946937012_1_alg».proof.Proof.Gen.KernelIdeal.Frame
import proofs.«421982_j91018946937012_1_alg».proof.Proof.Gen.ReferenceIdeal.Read
import proofs.«421982_j91018946937012_1_alg».proof.Proof.KTake
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v12 val_main_v19 val_main_v24 val_main_v25 val_main_v30 val_main_v33
  val_main_v40 val_main_v45 val_main_v46 val_main_v51 val_main_v54 val_main_v61 val_main_v66 val_main_v67 val_main_v72 val_main_v75 val_main_v81)

variable (m : (ℓ : Loc nD τ sig) → Buf (Elt Ideal) ℓ) (ρ : Dev nD → PrngReg) (c : Dev nD)

/-! ## After the first stretch: the index vectors and the inverse degree -/

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

theorem W1_v12 : W1 m ρ c (Proc.devRef .tc main_v12) = val_main_v12 (F := Ideal) (m ((c : Thread nD τ).loc main_arg1)) := by
  show StableHlo.after hostOps0 (W0 m ρ c) (Proc.devRef .tc main_v12) = _
  after_results
  rfl

theorem W1_arg0 : W1 m ρ c (Proc.devRef .tc main_arg0) = m ((c : Thread nD τ).loc main_arg0) := by
  show StableHlo.after hostOps0 (W0 m ρ c) (Proc.devRef .tc main_arg0) = _
  after_results_simp <;> rfl

/-! ## After the take: the source rows of the features -/

set_option maxHeartbeats 2000000 in
/-- The take's result buffer, read back through the take's operations from any contents `W`: the filled take of the
    feature table at `W` through the source-index vector at `W`. -/
theorem take0_read (W : Valuation τ sig (Elt Ideal)) :
    StableHlo.after hostOps0_1 W (Proc.devRef .tc main_v13)
      = takeFill128 (W (Proc.devRef .tc main_arg0)) (W (Proc.devRef .tc main_v1)) := by
  after_results_simp
  simp only [ofBuf_toBuf]
  refine eq_of_heq ((cast_heq _ _).trans (heq_of_eq ?_))
  rfl

/-- With every source index in range the take is the reference's gather of the feature rows. -/
theorem W2_v13 (hs : SrcOk (m ((c : Thread nD τ).loc main_arg1))) :
    W2 m ρ c (Proc.devRef .tc main_v13)
      = val_main_v19 (F := Ideal) (m ((c : Thread nD τ).loc main_arg0)) (m ((c : Thread nD τ).loc main_arg1)) := by
  show StableHlo.after hostOps0_1 (W1 m ρ c) (Proc.devRef .tc main_v13) = _
  rw [take0_read, W1_arg0, W1_v1]
  exact take128_ref _ _ hs

theorem W2_v3 : W2 m ρ c (Proc.devRef .tc main_v3) = val_main_v3 (F := Ideal) (m ((c : Thread nD τ).loc main_arg1)) := by
  have e := W1_v3 m ρ c
  show StableHlo.after hostOps0_1 (W1 m ρ c) (Proc.devRef .tc main_v3) = _
  generalize W1 m ρ c = W at e ⊢
  after_results
  exact e

theorem W2_v12 : W2 m ρ c (Proc.devRef .tc main_v12) = val_main_v12 (F := Ideal) (m ((c : Thread nD τ).loc main_arg1)) := by
  have e := W1_v12 m ρ c
  show StableHlo.after hostOps0_1 (W1 m ρ c) (Proc.devRef .tc main_v12) = _
  generalize W1 m ρ c = W at e ⊢
  after_results
  exact e

theorem W2_v1 : W2 m ρ c (Proc.devRef .tc main_v1) = val_main_v1 (F := Ideal) (m ((c : Thread nD τ).loc main_arg1)) := by
  have e := W1_v1 m ρ c
  show StableHlo.after hostOps0_1 (W1 m ρ c) (Proc.devRef .tc main_v1) = _
  generalize W1 m ρ c = W at e ⊢
  after_results
  exact e

/-! ## At the region's entry -/

/-- The aggregated features: the taken rows summed into their destination rows, scaled by the inverse degree. -/
theorem W3_v18 (hs : SrcOk (m ((c : Thread nD τ).loc main_arg1))) :
    W3 m ρ c (Proc.devRef .tc main_v18)
      = val_main_v24 (F := Ideal) (m ((c : Thread nD τ).loc main_arg0)) (m ((c : Thread nD τ).loc main_arg1)) := by
  have e13 := W2_v13 m ρ c hs
  have e3 := W2_v3 m ρ c
  have e12 := W2_v12 m ρ c
  show StableHlo.after hostOps0_2 (W2 m ρ c) (Proc.devRef .tc main_v18) = _
  generalize W2 m ρ c = W at e13 e3 e12 ⊢
  after_results
  rw [e13, e3, e12]
  rfl

set_option maxHeartbeats 4000000 in
/-- An argument array is as launched when the region is entered: no host operation writes one. -/
theorem W3_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9 ∨ b = main_arg10 ∨ b = main_arg11 ∨ b = main_arg12) :
    W3 m ρ c (Proc.devRef .tc b) = m ((c : Thread nD τ).loc b) := by
  show StableHlo.after hostOps0_2 (StableHlo.after hostOps0_1 (StableHlo.after hostOps0 (W0 m ρ c))) (Proc.devRef .tc b) = _
  rcases hb with rfl | rfl | rfl | rfl | rfl | rfl | rfl | rfl | rfl | rfl | rfl | rfl | rfl <;> (after_results_simp <;> rfl)

theorem W3_v19 : W3 m ρ c (Proc.devRef .tc main_v19) = val_main_v25 (F := Ideal) (m ((c : Thread nD τ).loc main_arg2)) := by
  show StableHlo.after hostOps0_2 (StableHlo.after hostOps0_1 (StableHlo.after hostOps0 (W0 m ρ c))) (Proc.devRef .tc main_v19) = _
  after_results_simp <;> rfl

theorem W3_v20 : W3 m ρ c (Proc.devRef .tc main_v20) = val_main_v30 (F := Ideal) (m ((c : Thread nD τ).loc main_arg4)) := by
  show StableHlo.after hostOps0_2 (StableHlo.after hostOps0_1 (StableHlo.after hostOps0 (W0 m ρ c))) (Proc.devRef .tc main_v20) = _
  after_results_simp <;> rfl

/-- The bias row: the bias vector laid out as one row. -/
theorem W3_v21 : W3 m ρ c (Proc.devRef .tc main_v21)
    = shapeCast S1x64 (m ((c : Thread nD τ).loc main_arg3)) Facts₀.shapeCasts_S64_S1x64 := by
  show StableHlo.after hostOps0_2 (StableHlo.after hostOps0_1 (StableHlo.after hostOps0 (W0 m ρ c))) (Proc.devRef .tc main_v21) = _
  after_results_simp <;> rfl

/-- The index vectors and the inverse degree are still what the first stretch computed. -/
theorem W3_v1 : W3 m ρ c (Proc.devRef .tc main_v1) = val_main_v1 (F := Ideal) (m ((c : Thread nD τ).loc main_arg1)) := by
  have e := W2_v1 m ρ c
  show StableHlo.after hostOps0_2 (W2 m ρ c) (Proc.devRef .tc main_v1) = _
  generalize W2 m ρ c = W at e ⊢
  after_results
  exact e

theorem W3_v3 : W3 m ρ c (Proc.devRef .tc main_v3) = val_main_v3 (F := Ideal) (m ((c : Thread nD τ).loc main_arg1)) := by
  have e := W2_v3 m ρ c
  show StableHlo.after hostOps0_2 (W2 m ρ c) (Proc.devRef .tc main_v3) = _
  generalize W2 m ρ c = W at e ⊢
  after_results
  exact e

theorem W3_v12 : W3 m ρ c (Proc.devRef .tc main_v12) = val_main_v12 (F := Ideal) (m ((c : Thread nD τ).loc main_arg1)) := by
  have e := W2_v12 m ρ c
  show StableHlo.after hostOps0_2 (W2 m ρ c) (Proc.devRef .tc main_v12) = _
  generalize W2 m ρ c = W at e ⊢
  after_results
  exact e

end Cert.KernelIdeal.KVal

end
-- ==== Proof.Layer0.lean ====
/-
  The first layer at one entry: the kernel body's block result against the reference's layer.

  At Ideal the body computes, at row `r` and column `j` of its block,
  `max ((Σ_k agg[r,k]·Wl[k,j] + Σ_k x[r,k]·Wr[k,j]) + b[j]) 0` (a change of float format is the identity, and a matrix
  product into a zero accumulator is the plain sum); the reference computes, at row `R` and column `j`,
  `max ((Σ_k agg[R,k]·Wl[k,j] + b[j]) + Σ_k x[R,k]·Wr[k,j]) 0`. When the block's row `r` holds the array's row `R` the two
  differ only in the order of a three-term sum, and addition on the extended reals is commutative and associative.
-/
import proofs.«421982_j91018946937012_1_alg».proof.Proof.Gen.KernelIdeal.Skeleton
import proofs.«421982_j91018946937012_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Layer0

open Idealize.ShloMosaic Idealize.ShloMosaic.ValueIdx
open Cert.KernelIdeal (S5000x128 S5000x64 S128x64 S64x64 S1x64)

/-! ## The body's matrix product at an entry -/

/-- The left operand's row coordinate is the output's row. -/
theorem lhs_dot_0 (i : S5000x64.Idx) (q : Cert.KernelIdeal.dot_S5000x128_S128x64_S5000x64_1_0_0_1_n_n.contr.Idx) :
    (Cert.KernelIdeal.dot_S5000x128_S128x64_S5000x64_1_0_0_1_n_n.lhsIdx i q 0).val = (i 0).val := by
  unfold DotDims.lhsIdx
  rw [dif_neg (show ¬(0 : Fin S5000x128.rank) ∈ Cert.KernelIdeal.dot_S5000x128_S128x64_S5000x64_1_0_0_1_n_n.lhsBatch by decide), dif_pos (show (0 : Fin S5000x128.rank) ∈ Cert.KernelIdeal.dot_S5000x128_S128x64_S5000x64_1_0_0_1_n_n.lhsNonContracting by decide)]
  rfl
/-- The left operand's column coordinate is the contraction's coordinate. -/
theorem lhs_dot_1 (i : S5000x64.Idx) (q : Cert.KernelIdeal.dot_S5000x128_S128x64_S5000x64_1_0_0_1_n_n.contr.Idx) :
    (Cert.KernelIdeal.dot_S5000x128_S128x64_S5000x64_1_0_0_1_n_n.lhsIdx i q 1).val = (q ⟨0, by decide⟩).val :=
  Cert.KernelIdeal.dot_S5000x128_S128x64_S5000x64_1_0_0_1_n_n.lhsIdx_val_of_single rfl i q
/-- The right operand's row coordinate is the contraction's coordinate. -/
theorem rhs_dot_0 (i : S5000x64.Idx) (q : Cert.KernelIdeal.dot_S5000x128_S128x64_S5000x64_1_0_0_1_n_n.contr.Idx) :
    (Cert.KernelIdeal.dot_S5000x128_S128x64_S5000x64_1_0_0_1_n_n.rhsIdx i q 0).val = (q ⟨0, by decide⟩).val :=
  Cert.KernelIdeal.dot_S5000x128_S128x64_S5000x64_1_0_0_1_n_n.rhsIdx_val_of_single rfl i q
/-- The right operand's column coordinate is the output's column. -/
theorem rhs_dot_1 (i : S5000x64.Idx) (q : Cert.KernelIdeal.dot_S5000x128_S128x64_S5000x64_1_0_0_1_n_n.contr.Idx) :
    (Cert.KernelIdeal.dot_S5000x128_S128x64_S5000x64_1_0_0_1_n_n.rhsIdx i q 1).val = (i 1).val := by
  unfold DotDims.rhsIdx
  rw [dif_neg (show ¬(1 : Fin S128x64.rank) ∈ Cert.KernelIdeal.dot_S5000x128_S128x64_S5000x64_1_0_0_1_n_n.rhsBatch by decide), dif_pos (show (1 : Fin S128x64.rank) ∈ Cert.KernelIdeal.dot_S5000x128_S128x64_S5000x64_1_0_0_1_n_n.rhsNonContracting by decide)]
  rfl

/-- A matrix product into the zero accumulator, read at `(r, j)`: the sum over the 128 features of the left operand's row
    `r` times the right operand's column `j`. -/
theorem matmul_point (a : FVec Ideal S5000x128 .bf16) (b : FVec Ideal S128x64 .bf16) (r : Fin 5000) (j : Fin 64) :
    matmul (F := Ideal) Cert.KernelIdeal.dot_S5000x128_S128x64_S5000x64_1_0_0_1_n_n none a b
        (constant (F := Ideal) S5000x64 .f32 0x00000000#32) (ix2 r j)
      = ∑ k : Fin 128, a (ix2 r k) * b (ix2 k j) := by
  simp only [matmul]
  rw [Ideal.matmul_constant_zero_apply, ← Equiv.sum_comp (ValueIdx.contrEquiv1 Cert.KernelIdeal.dot_S5000x128_S128x64_S5000x64_1_0_0_1_n_n 128 rfl rfl).symm]
  refine Finset.sum_congr rfl fun k _ => ?_
  have hk := ValueIdx.contrEquiv1_symm_val Cert.KernelIdeal.dot_S5000x128_S128x64_S5000x64_1_0_0_1_n_n 128 rfl rfl k
  have el : Cert.KernelIdeal.dot_S5000x128_S128x64_S5000x64_1_0_0_1_n_n.lhsIdx (ix2 r j) ((ValueIdx.contrEquiv1 Cert.KernelIdeal.dot_S5000x128_S128x64_S5000x64_1_0_0_1_n_n 128 rfl rfl).symm k) = ix2 r k := funext fun c => Fin.ext (by
    match c with
    | ⟨0, _⟩ => exact lhs_dot_0 _ _
    | ⟨1, _⟩ => exact (lhs_dot_1 _ _).trans hk)
  have er : Cert.KernelIdeal.dot_S5000x128_S128x64_S5000x64_1_0_0_1_n_n.rhsIdx (ix2 r j) ((ValueIdx.contrEquiv1 Cert.KernelIdeal.dot_S5000x128_S128x64_S5000x64_1_0_0_1_n_n 128 rfl rfl).symm k) = ix2 k j := funext fun c => Fin.ext (by
    match c with
    | ⟨0, _⟩ => exact (rhs_dot_0 _ _).trans hk
    | ⟨1, _⟩ => exact rhs_dot_1 _ _)
  rw [el, er]

/-! ## The body's stored value at an entry -/

/-- The body's stored value at `(r, j)`: the two sums, then the bias, then the maximum with zero. -/
theorem pay_point (v0 v3 : Vec Ideal S5000x128 .f32) (v5 v8 : Vec Ideal S128x64 .f32) (v14 : Vec Ideal S1x64 .f32)
    (r : Fin 5000) (j : Fin 64) :
    Cert.KernelIdeal.Gen.k0_pay1 (F := Ideal) v0 v3 v5 v8 v14 (ix2 r j)
      = max (((∑ k : Fin 128, v0 (ix2 r k) * v5 (ix2 k j)) + (∑ k : Fin 128, v3 (ix2 r k) * v8 (ix2 k j)))
          + v14 (ix2 (0 : Fin 1) j)) (Ideal.ofBits .f32 0x00000000#32) := by
  unfold Cert.KernelIdeal.Gen.k0_pay1
  simp only [shapeCast_self]
  rw [maximumf_apply, addf_apply, addf_apply, broadcast_apply, broadcastTo_1b_ab_apply, matmul_point, matmul_point]
  simp only [truncf_apply]
  rfl

/-! ## The reference's layer at an entry -/

/-- The reference's first layer at `(R, j)`: the first sum, then the bias, then the second sum, then the maximum with zero. -/
theorem ref_point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (R : Fin 100000) (j : Fin 64) :
    Cert.ReferenceIdeal.Read.val_main_v33 (F := Ideal) x0 x1 x2 x3 x4 (ix2 R j)
      = max (((∑ k : Fin 128, Cert.ReferenceIdeal.Read.val_main_v24 (F := Ideal) x0 x1 (ix2 R k)
                * Cert.ReferenceIdeal.Read.val_main_v25 (F := Ideal) x2 (ix2 k j)) + x3 (ix1 j))
          + ∑ k : Fin 128, x0 (ix2 R k) * Cert.ReferenceIdeal.Read.val_main_v30 (F := Ideal) x4 (ix2 k j))
        (Ideal.ofBits .f32 0x00000000#32) := by
  rw [Cert.ReferenceIdeal.Read.val_main_v33_apply, Cert.ReferenceIdeal.Read.val_main_v32_apply,
    Cert.ReferenceIdeal.Read.val_main_v29_apply, Cert.ReferenceIdeal.Read.val_main_v26_apply,
    Cert.ReferenceIdeal.Read.val_main_v31_apply, Cert.ReferenceIdeal.Read.val_main_v28_apply,
    Cert.ReferenceIdeal.Read.val_main_v27_apply, Cert.ReferenceIdeal.Read.val_main_call0_v0_apply,
    Cert.ReferenceIdeal.Read.val_main_call0_cst_apply]
  have el26 : ∀ k : Fin 128, Cert.ReferenceIdeal.Read.lidx_main_v26 (ix2 R j) k = ix2 R k := fun k =>
    funext fun c => Fin.ext (by match c with | ⟨0, _⟩ => rfl | ⟨1, _⟩ => rfl)
  have er26 : ∀ k : Fin 128, Cert.ReferenceIdeal.Read.ridx_main_v26 (ix2 R j) k = ix2 k j := fun k =>
    funext fun c => Fin.ext (by match c with | ⟨0, _⟩ => rfl | ⟨1, _⟩ => rfl)
  have el31 : ∀ k : Fin 128, Cert.ReferenceIdeal.Read.lidx_main_v31 (ix2 R j) k = ix2 R k := fun k =>
    funext fun c => Fin.ext (by match c with | ⟨0, _⟩ => rfl | ⟨1, _⟩ => rfl)
  have er31 : ∀ k : Fin 128, Cert.ReferenceIdeal.Read.ridx_main_v31 (ix2 R j) k = ix2 k j := fun k =>
    funext fun c => Fin.ext (by match c with | ⟨0, _⟩ => rfl | ⟨1, _⟩ => rfl)
  have eb : Cert.ReferenceIdeal.Read.idx_main_v27 (Cert.ReferenceIdeal.Read.idx_main_v28 (ix2 R j)) = ix1 j :=
    funext fun c => Fin.ext (by match c with | ⟨0, _⟩ => rfl)
  have s26 : (∑ k : Fin 128, Cert.ReferenceIdeal.Read.val_main_v24 (F := Ideal) x0 x1 (Cert.ReferenceIdeal.Read.lidx_main_v26 (ix2 R j) k)
        * Cert.ReferenceIdeal.Read.val_main_v25 (F := Ideal) x2 (Cert.ReferenceIdeal.Read.ridx_main_v26 (ix2 R j) k))
      = ∑ k : Fin 128, Cert.ReferenceIdeal.Read.val_main_v24 (F := Ideal) x0 x1 (ix2 R k)
        * Cert.ReferenceIdeal.Read.val_main_v25 (F := Ideal) x2 (ix2 k j) :=
    Finset.sum_congr rfl fun k _ => by rw [el26 k, er26 k]
  have s31 : (∑ k : Fin 128, x0 (Cert.ReferenceIdeal.Read.lidx_main_v31 (ix2 R j) k)
        * Cert.ReferenceIdeal.Read.val_main_v30 (F := Ideal) x4 (Cert.ReferenceIdeal.Read.ridx_main_v31 (ix2 R j) k))
      = ∑ k : Fin 128, x0 (ix2 R k) * Cert.ReferenceIdeal.Read.val_main_v30 (F := Ideal) x4 (ix2 k j) :=
    Finset.sum_congr rfl fun k _ => by rw [el31 k, er31 k]
  rw [eb, s26, s31]
  rfl

/-! ## The two against each other -/

/-- The body's stored value at `(r, j)` is the reference's first layer at `(R, j)`, when the loaded blocks hold row `R` of the
    aggregated features (`v0`) and of the features (`v3`), the two transposed weight matrices (`v5`, `v8`) and the bias row (`v14`). -/
theorem point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (v0 v3 : Vec Ideal S5000x128 .f32) (v5 v8 : Vec Ideal S128x64 .f32) (v14 : Vec Ideal S1x64 .f32)
    (R : Fin 100000) (r : Fin 5000) (j : Fin 64)
    (h0 : ∀ k : Fin 128, v0 (ix2 r k) = Cert.ReferenceIdeal.Read.val_main_v24 (F := Ideal) x0 x1 (ix2 R k))
    (h3 : ∀ k : Fin 128, v3 (ix2 r k) = x0 (ix2 R k))
    (h5 : ∀ k : Fin 128, v5 (ix2 k j) = Cert.ReferenceIdeal.Read.val_main_v25 (F := Ideal) x2 (ix2 k j))
    (h8 : ∀ k : Fin 128, v8 (ix2 k j) = Cert.ReferenceIdeal.Read.val_main_v30 (F := Ideal) x4 (ix2 k j))
    (h14 : v14 (ix2 (0 : Fin 1) j) = x3 (ix1 j)) :
    Cert.KernelIdeal.Gen.k0_pay1 (F := Ideal) v0 v3 v5 v8 v14 (ix2 r j)
      = Cert.ReferenceIdeal.Read.val_main_v33 (F := Ideal) x0 x1 x2 x3 x4 (ix2 R j) := by
  have s1 : (∑ k : Fin 128, v0 (ix2 r k) * v5 (ix2 k j))
      = ∑ k : Fin 128, Cert.ReferenceIdeal.Read.val_main_v24 (F := Ideal) x0 x1 (ix2 R k)
        * Cert.ReferenceIdeal.Read.val_main_v25 (F := Ideal) x2 (ix2 k j) :=
    Finset.sum_congr rfl fun k _ => by rw [h0 k, h5 k]
  have s2 : (∑ k : Fin 128, v3 (ix2 r k) * v8 (ix2 k j))
      = ∑ k : Fin 128, x0 (ix2 R k) * Cert.ReferenceIdeal.Read.val_main_v30 (F := Ideal) x4 (ix2 k j) :=
    Finset.sum_congr rfl fun k _ => by rw [h3 k, h8 k]
  rw [pay_point, ref_point, h14, s1, s2]
  exact congrArg (fun t => max t (Ideal.ofBits .f32 0x00000000#32)) (add_right_comm _ _ _)

end Cert.Layer0

end
-- ==== Proof.KRegion0.lean ====
/-
  What the first kernel region leaves in its output array.

  The region runs the body at 20 grid points; point `t` loads rows `5000·t … 5000·t + 4999` of the aggregated features and
  of the features, the two whole transposed weight matrices and the bias row, and writes back rows `5000·t … 5000·t + 4999`
  of the output. Each written entry is the reference's first layer at that entry (the layer's lemma at one entry), and the
  20 row blocks cover the array, so the whole array is the reference's first layer.
-/
import proofs.«421982_j91018946937012_1_alg».proof.Proof.Gen.KernelIdeal.Frame
import proofs.«421982_j91018946937012_1_alg».proof.Proof.Gen.ReferenceIdeal.Read
import proofs.«421982_j91018946937012_1_alg».proof.Proof.Layer0
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v24 val_main_v25 val_main_v30 val_main_v33
  val_main_v45 val_main_v46 val_main_v51 val_main_v54 val_main_v66 val_main_v67 val_main_v72 val_main_v75)

variable (V : (c : Dev nD) → (b : Ref sig .tc) → Buf (Elt Ideal) ((c : Thread nD τ).loc b)) (c : Dev nD)

/-- The zero offsets of a whole-block rectangle, in the spelling the lemmas on such rectangles take. -/
theorem hz0 : (![0, 0] : Fin 2 → Nat) = fun _ => 0 := funext fun a => by fin_cases a <;> rfl

/-- The windows' block indices at every grid point: the two row-blocked inputs and the output are at block `(t, 0)`, the
    two weight matrices and the bias row at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block, read at an entry -/

/-- Point `t`'s block of the aggregated features, read at `(r, k)`, is the array's entry at row `5000·t + r`, column `k`. -/
theorem read_blk0_0 (G : (⟨S100000x128, .f32⟩ : BufTy).Contents (Elt Ideal)) (hA : V c (Pipeline.arrRef spec0 0) = G)
    (t : Fin cfg0.N) (r : Fin 5000) (k : Fin 128) (R : Fin 100000) (hR : R.val = 5000 * t.val + r.val) :
    iblk0 V c 0 t (ix2 r k) = G (ix2 R k) := by
  obtain ⟨e00, e01, e10, e11, -⟩ := idx_facts0 t
  show V c (Pipeline.arrRef spec0 0) (((cfg0.win 0).blk t).view.emb (ix2 r k)) = _
  rw [hA]
  refine congrArg G (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

/-- Point `t`'s block of the features, read at `(r, k)`, is the array's entry at row `5000·t + r`, column `k`. -/
theorem read_blk0_1 (G : (⟨S100000x128, .f32⟩ : BufTy).Contents (Elt Ideal)) (hA : V c (Pipeline.arrRef spec0 1) = G)
    (t : Fin cfg0.N) (r : Fin 5000) (k : Fin 128) (R : Fin 100000) (hR : R.val = 5000 * t.val + r.val) :
    iblk0 V c 1 t (ix2 r k) = G (ix2 R k) := by
  obtain ⟨e00, e01, e10, e11, -⟩ := idx_facts0 t
  show V c (Pipeline.arrRef spec0 1) (((cfg0.win 1).blk t).view.emb (ix2 r k)) = _
  rw [hA]
  refine congrArg G (funext fun a => Fin.ext ?_)
  match a with
  | ⟨0, _⟩ => show win0_1.index t (0 : Fin 2) * 5000 + 1 * r.val = R.val; omega
  | ⟨1, _⟩ => show win0_1.index t (1 : Fin 2) * 128 + 1 * k.val = k.val; omega

/-- Point `t`'s block of the first weight matrix is the whole matrix. -/
theorem read_blk0_2 (G : (⟨S128x64, .f32⟩ : BufTy).Contents (Elt Ideal)) (hA : V c (Pipeline.arrRef spec0 2) = G)
    (t : Fin cfg0.N) (k : Fin 128) (j : Fin 64) :
    iblk0 V c 2 t (ix2 k j) = G (ix2 k j) := by
  obtain ⟨-, -, -, -, e20, e21, e30, e31, -⟩ := idx_facts0 t
  show V c (Pipeline.arrRef spec0 2) (((cfg0.win 2).blk t).view.emb (ix2 k j)) = _
  rw [hA]
  refine congrArg G (funext fun a => Fin.ext ?_)
  match a with
  | ⟨0, _⟩ => show win0_2.index t (0 : Fin 2) * 128 + 1 * k.val = k.val; omega
  | ⟨1, _⟩ => show win0_2.index t (1 : Fin 2) * 64 + 1 * j.val = j.val; omega

/-- Point `t`'s block of the second weight matrix is the whole matrix. -/
theorem read_blk0_3 (G : (⟨S128x64, .f32⟩ : BufTy).Contents (Elt Ideal)) (hA : V c (Pipeline.arrRef spec0 3) = G)
    (t : Fin cfg0.N) (k : Fin 128) (j : Fin 64) :
    iblk0 V c 3 t (ix2 k j) = G (ix2 k j) := by
  obtain ⟨-, -, -, -, e20, e21, e30, e31, -⟩ := idx_facts0 t
  show V c (Pipeline.arrRef spec0 3) (((cfg0.win 3).blk t).view.emb (ix2 k j)) = _
  rw [hA]
  refine congrArg G (funext fun a => Fin.ext ?_)
  match a with
  | ⟨0, _⟩ => show win0_3.index t (0 : Fin 2) * 128 + 1 * k.val = k.val; omega
  | ⟨1, _⟩ => show win0_3.index t (1 : Fin 2) * 64 + 1 * j.val = j.val; omega

/-- Point `t`'s block of the bias row is the whole row: the bias vector laid out as one row. -/
theorem read_blk0_4 (b : (⟨Cert.ReferenceIdeal.S64, .f32⟩ : BufTy).Contents (Elt Ideal))
    (hA : V c (Pipeline.arrRef spec0 4) = shapeCast S1x64 b Facts₀.shapeCasts_S64_S1x64) (t : Fin cfg0.N) (j : Fin 64) :
    iblk0 V c 4 t (ix2 (0 : Fin 1) j) = b (ix1 j) := by
  obtain ⟨-, -, -, -, -, -, -, -, e40, e41, -⟩ := idx_facts0 t
  show V c (Pipeline.arrRef spec0 4) (((cfg0.win 4).blk t).view.emb (ix2 (0 : Fin 1) j)) = _
  rw [hA]
  refine Eq.trans (congrArg (shapeCast S1x64 b Facts₀.shapeCasts_S64_S1x64) (funext fun a => Fin.ext ?_))
    (shapeCast_a_1a_apply b Facts₀.shapeCasts_S64_S1x64 (0 : Fin 1) j)
  match a with
  | ⟨0, _⟩ => show win0_4.index t (0 : Fin 2) * 1 + 1 * 0 = 0; omega
  | ⟨1, _⟩ => show win0_4.index t (1 : Fin 2) * 64 + 1 * j.val = j.val; omega

/-- Point `t`'s block of the output array, read from any contents `G` of that array, holds at `(r, j)` the entry of `G` at
    row `5000·t + r`, column `j`. -/
theorem read_out_blk0 (G : (⟨S100000x64, .f32⟩ : BufTy).Contents (Elt Ideal)) (t : Fin cfg0.N) (r : Fin 5000) (j : Fin 64)
    (R : Fin 100000) (hR : R.val = 5000 * t.val + r.val) :
    ((cfg0.win 5).blk t).view.read (Elt Ideal) G (ix2 r j) = G (ix2 R j) := by
  obtain ⟨-, -, -, -, -, -, -, -, -, -, e50, e51⟩ := idx_facts0 t
  show G (((cfg0.win 5).blk t).view.emb (ix2 r j)) = _
  refine congrArg G (funext fun a => Fin.ext ?_)
  match a with
  | ⟨0, _⟩ => show win0_5.index t (0 : Fin 2) * 5000 + 1 * r.val = R.val; omega
  | ⟨1, _⟩ => show win0_5.index t (1 : Fin 2) * 64 + 1 * j.val = j.val; omega

/-! ## What a point writes back, and the cover -/

/-- WHAT POINT `t` WRITES BACK is rows `5000·t … 5000·t + 4999` of the reference's first layer. -/
theorem flushed0_eq
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal))
    (hA0 : V c (Pipeline.arrRef spec0 0) = val_main_v24 (F := Ideal) x0 x1)
    (hA1 : V c (Pipeline.arrRef spec0 1) = x0)
    (hA2 : V c (Pipeline.arrRef spec0 2) = val_main_v25 (F := Ideal) x2)
    (hA3 : V c (Pipeline.arrRef spec0 3) = val_main_v30 (F := Ideal) x4)
    (hA4 : V c (Pipeline.arrRef spec0 4) = shapeCast S1x64 x3 Facts₀.shapeCasts_S64_S1x64) (t : Fin cfg0.N) :
    (dat0 (F := Ideal) V c).flushed 5 t
      = ((cfg0.win 5).blk t).view.read (Elt Ideal) (val_main_v33 (F := Ideal) x0 x1 x2 x3 x4) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x64) hz0, View.ld_unit_zero (S := S1x64) hz0]
  funext y
  obtain ⟨r, j, rfl⟩ : ∃ (r : Fin 5000) (j : Fin 64), y = ix2 r j := ⟨y 0, y 1, eq_ix2 y⟩
  have ht : t.val < 20 := Nat.lt_of_lt_of_eq t.isLt N_0
  -- the array's row under row `r` of point `t`'s blocks
  obtain ⟨R, hR⟩ : ∃ R : Fin 100000, R.val = 5000 * t.val + r.val := ⟨⟨5000 * t.val + r.val, by omega⟩, rfl⟩
  exact (Cert.Layer0.point x0 x1 x2 x3 x4 (iblk0 V c 0 t) (iblk0 V c 1 t) (iblk0 V c 2 t) (iblk0 V c 3 t) (iblk0 V c 4 t) R r j
    (fun k => read_blk0_0 V c (val_main_v24 (F := Ideal) x0 x1) hA0 t r k R hR)
    (fun k => read_blk0_1 V c (x0) hA1 t r k R hR)
    (fun k => read_blk0_2 V c (val_main_v25 (F := Ideal) x2) hA2 t k j)
    (fun k => read_blk0_3 V c (val_main_v30 (F := Ideal) x4) hA3 t k j)
    (read_blk0_4 V c x3 hA4 t j)).trans
    (read_out_blk0 (val_main_v33 (F := Ideal) x0 x1 x2 x3 x4) t r j R hR).symm

/-- An entry of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v22).slice (win0_5.rect t)).set ↔ _
  rw [View.set_slice_whole, Rect.mem_set_unit]
  exact Iff.rfl

/-- The 20 row blocks cover the output array: row `R` is in the block of point `R / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, by rw [show cfg0.N = 20 from N_0]; omega⟩, rfl⟩
  obtain ⟨-, -, -, -, -, -, -, -, -, -, e50, e51⟩ := idx_facts0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The output array after the region is the reference's first layer, when the region's five input arrays hold the
    aggregated features, the features, the two transposed weight matrices and the bias row. -/
theorem region0_out
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal))
    (hA0 : V c (Pipeline.arrRef spec0 0) = val_main_v24 (F := Ideal) x0 x1)
    (hA1 : V c (Pipeline.arrRef spec0 1) = x0)
    (hA2 : V c (Pipeline.arrRef spec0 2) = val_main_v25 (F := Ideal) x2)
    (hA3 : V c (Pipeline.arrRef spec0 3) = val_main_v30 (F := Ideal) x4)
    (hA4 : V c (Pipeline.arrRef spec0 4) = shapeCast S1x64 x3 Facts₀.shapeCasts_S64_S1x64) :
    (dat0 (F := Ideal) V c).arrAt 5 cfg0.N = val_main_v33 (F := Ideal) x0 x1 x2 x3 x4 := by
  exact (dat0 (F := Ideal) V c).arrAt_eq_of_cover 5 (val_main_v33 (F := Ideal) x0 x1 x2 x3 x4)
    (fun t _ => flushed0_eq V c x0 x1 x2 x3 x4 hA0 hA1 hA2 hA3 hA4 t) cover0

end Cert.KernelIdeal.KVal

end
-- ==== Proof.KStage1.lean ====
/-
  The contents of the buffers when the second kernel region is entered, as functions of the argument arrays.

  The first region leaves the reference's first layer in its output array and touches nothing else. The host operations
  between the regions take the source rows of that layer (with every source index in range the filled take is the
  reference's gather), sum them into their destination rows, scale by the inverse degree, and transpose the second
  layer's two weight matrices. Each buffer is read back through the operations that wrote it and meets the reference's
  own stage of the same operations.
-/
import proofs.«421982_j91018946937012_1_alg».proof.Proof.Gen.KernelIdeal.Frame
import proofs.«421982_j91018946937012_1_alg».proof.Proof.Gen.ReferenceIdeal.Read
import proofs.«421982_j91018946937012_1_alg».proof.Proof.KTake
import proofs.«421982_j91018946937012_1_alg».proof.Proof.KStage0
import proofs.«421982_j91018946937012_1_alg».proof.Proof.KRegion0
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v12 val_main_v33 val_main_v40 val_main_v45 val_main_v46 val_main_v51)

variable (m : (ℓ : Loc nD τ sig) → Buf (Elt Ideal) ℓ) (ρ : Dev nD → PrngReg) (c : Dev nD)

/-! ## At the first region's exit -/

/-- The first region's output array holds the reference's first layer. -/
theorem W4_v22 (hs : SrcOk (m ((c : Thread nD τ).loc main_arg1))) :
    W4 m ρ c (Proc.devRef .tc main_v22)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W4_arr m ρ c 5).trans (region0_out (V3 m ρ) c _ _ _ _ _
    (W3_v18 m ρ c hs) (W3_arg m ρ c main_arg0 (Or.inl rfl)) (W3_v19 m ρ c) (W3_v20 m ρ c) (W3_v21 m ρ c))

theorem W4_v1 : W4 m ρ c (Proc.devRef .tc main_v1) = val_main_v1 (F := Ideal) (m ((c : Thread nD τ).loc main_arg1)) :=
  (W4_of_ne m ρ c main_v1 (by decide)).trans (W3_v1 m ρ c)

theorem W4_v3 : W4 m ρ c (Proc.devRef .tc main_v3) = val_main_v3 (F := Ideal) (m ((c : Thread nD τ).loc main_arg1)) :=
  (W4_of_ne m ρ c main_v3 (by decide)).trans (W3_v3 m ρ c)

theorem W4_v12 : W4 m ρ c (Proc.devRef .tc main_v12) = val_main_v12 (F := Ideal) (m ((c : Thread nD τ).loc main_arg1)) :=
  (W4_of_ne m ρ c main_v12 (by decide)).trans (W3_v12 m ρ c)

/-- The later layers' argument arrays are as launched at the first region's exit: the region's arrays are none of them. -/
theorem W4_arg (b : Ref sig .tc) (hb : b = main_arg5 ∨ b = main_arg6 ∨ b = main_arg7 ∨ b = main_arg8 ∨ b = main_arg9
      ∨ b = main_arg10 ∨ b = main_arg11 ∨ b = main_arg12) :
    W4 m ρ c (Proc.devRef .tc b) = m ((c : Thread nD τ).loc b) := by
  rcases hb with rfl | rfl | rfl | rfl | rfl | rfl | rfl | rfl <;>
    exact (W4_of_ne m ρ c _ (by decide)).trans (W3_arg m ρ c _ (by simp))

/-! ## After the take: the source rows of the first layer -/

set_option maxHeartbeats 2000000 in
/-- The take's result buffer, read back through the take's operations from any contents `W`: the filled take of the
    first layer at `W` through the source-index vector at `W`. -/
theorem take1_read (W : Valuation τ sig (Elt Ideal)) :
    StableHlo.after hostOps1 W (Proc.devRef .tc main_v23)
      = takeFill64 (W (Proc.devRef .tc main_v22)) (W (Proc.devRef .tc main_v1)) := by
  after_results_simp
  simp only [ofBuf_toBuf]
  refine eq_of_heq ((cast_heq _ _).trans (heq_of_eq ?_))
  rfl

/-- With every source index in range the take is the reference's gather of the first layer's rows. -/
theorem W5_v23 (hs : SrcOk (m ((c : Thread nD τ).loc main_arg1))) :
    W5 m ρ c (Proc.devRef .tc main_v23)
      = val_main_v40 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps1 (W4 m ρ c) (Proc.devRef .tc main_v23) = _
  rw [take1_read, W4_v22 m ρ c hs, W4_v1]
  exact (takeFill64_eq _ _ hs).trans rfl

theorem W5_v3 : W5 m ρ c (Proc.devRef .tc main_v3) = val_main_v3 (F := Ideal) (m ((c : Thread nD τ).loc main_arg1)) := by
  have e := W4_v3 m ρ c
  show StableHlo.after hostOps1 (W4 m ρ c) (Proc.devRef .tc main_v3) = _
  generalize W4 m ρ c = W at e ⊢
  after_results
  exact e

theorem W5_v12 : W5 m ρ c (Proc.devRef .tc main_v12) = val_main_v12 (F := Ideal) (m ((c : Thread nD τ).loc main_arg1)) := by
  have e := W4_v12 m ρ c
  show StableHlo.after hostOps1 (W4 m ρ c) (Proc.devRef .tc main_v12) = _
  generalize W4 m ρ c = W at e ⊢
  after_results
  exact e

theorem W5_v1 : W5 m ρ c (Proc.devRef .tc main_v1) = val_main_v1 (F := Ideal) (m ((c : Thread nD τ).loc main_arg1)) := by
  have e := W4_v1 m ρ c
  show StableHlo.after hostOps1 (W4 m ρ c) (Proc.devRef .tc main_v1) = _
  generalize W4 m ρ c = W at e ⊢
  after_results
  exact e

theorem W5_v22 (hs : SrcOk (m ((c : Thread nD τ).loc main_arg1))) :
    W5 m ρ c (Proc.devRef .tc main_v22)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e := W4_v22 m ρ c hs
  show StableHlo.after hostOps1 (W4 m ρ c) (Proc.devRef .tc main_v22) = _
  generalize W4 m ρ c = W at e ⊢
  after_results
  exact e

/-! ## At the second region's entry -/

/-- The aggregated first layer: the taken rows summed into their destination rows, scaled by the inverse degree. -/
theorem W6_v28 (hs : SrcOk (m ((c : Thread nD τ).loc main_arg1))) :
    W6 m ρ c (Proc.devRef .tc main_v28)
      = val_main_v45 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e23 := W5_v23 m ρ c hs
  have e3 := W5_v3 m ρ c
  have e12 := W5_v12 m ρ c
  show StableHlo.after hostOps1_1 (W5 m ρ c) (Proc.devRef .tc main_v28) = _
  generalize W5 m ρ c = W at e23 e3 e12 ⊢
  after_results
  rw [e23, e3, e12]
  rfl

theorem W6_v22 (hs : SrcOk (m ((c : Thread nD τ).loc main_arg1))) :
    W6 m ρ c (Proc.devRef .tc main_v22)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e := W5_v22 m ρ c hs
  show StableHlo.after hostOps1_1 (W5 m ρ c) (Proc.devRef .tc main_v22) = _
  generalize W5 m ρ c = W at e ⊢
  after_results
  exact e

set_option maxHeartbeats 4000000 in
/-- An argument array of the later layers is as launched when the second region is entered. -/
theorem W6_arg (b : Ref sig .tc) (hb : b = main_arg5 ∨ b = main_arg6 ∨ b = main_arg7 ∨ b = main_arg8 ∨ b = main_arg9
      ∨ b = main_arg10 ∨ b = main_arg11 ∨ b = main_arg12) :
    W6 m ρ c (Proc.devRef .tc b) = m ((c : Thread nD τ).loc b) := by
  have e := W4_arg m ρ c b hb
  show StableHlo.after hostOps1_1 (StableHlo.after hostOps1 (W4 m ρ c)) (Proc.devRef .tc b) = _
  generalize W4 m ρ c = W at e ⊢
  rcases hb with rfl | rfl | rfl | rfl | rfl | rfl | rfl | rfl <;> (after_results_simp <;> exact e)

set_option maxHeartbeats 1000000 in
theorem W6_v29 : W6 m ρ c (Proc.devRef .tc main_v29) = val_main_v46 (F := Ideal) (m ((c : Thread nD τ).loc main_arg5)) := by
  have e := W4_arg m ρ c main_arg5 (by simp)
  show StableHlo.after hostOps1_1 (StableHlo.after hostOps1 (W4 m ρ c)) (Proc.devRef .tc main_v29) = _
  generalize W4 m ρ c = W at e ⊢
  after_results_simp
  rw [e]
  rfl

set_option maxHeartbeats 1000000 in
theorem W6_v30 : W6 m ρ c (Proc.devRef .tc main_v30) = val_main_v51 (F := Ideal) (m ((c : Thread nD τ).loc main_arg7)) := by
  have e := W4_arg m ρ c main_arg7 (by simp)
  show StableHlo.after hostOps1_1 (StableHlo.after hostOps1 (W4 m ρ c)) (Proc.devRef .tc main_v30) = _
  generalize W4 m ρ c = W at e ⊢
  after_results_simp
  rw [e]
  rfl

set_option maxHeartbeats 1000000 in
/-- The bias row of the second layer: the bias vector laid out as one row. -/
theorem W6_v31 : W6 m ρ c (Proc.devRef .tc main_v31)
    = shapeCast S1x64 (m ((c : Thread nD τ).loc main_arg6)) Facts₀.shapeCasts_S64_S1x64 := by
  have e := W4_arg m ρ c main_arg6 (by simp)
  show StableHlo.after hostOps1_1 (StableHlo.after hostOps1 (W4 m ρ c)) (Proc.devRef .tc main_v31) = _
  generalize W4 m ρ c = W at e ⊢
  after_results_simp
  rw [e]
  rfl

theorem W6_v1 : W6 m ρ c (Proc.devRef .tc main_v1) = val_main_v1 (F := Ideal) (m ((c : Thread nD τ).loc main_arg1)) := by
  have e := W5_v1 m ρ c
  show StableHlo.after hostOps1_1 (W5 m ρ c) (Proc.devRef .tc main_v1) = _
  generalize W5 m ρ c = W at e ⊢
  after_results
  exact e

theorem W6_v3 : W6 m ρ c (Proc.devRef .tc main_v3) = val_main_v3 (F := Ideal) (m ((c : Thread nD τ).loc main_arg1)) := by
  have e := W5_v3 m ρ c
  show StableHlo.after hostOps1_1 (W5 m ρ c) (Proc.devRef .tc main_v3) = _
  generalize W5 m ρ c = W at e ⊢
  after_results
  exact e

theorem W6_v12 : W6 m ρ c (Proc.devRef .tc main_v12) = val_main_v12 (F := Ideal) (m ((c : Thread nD τ).loc main_arg1)) := by
  have e := W5_v12 m ρ c
  show StableHlo.after hostOps1_1 (W5 m ρ c) (Proc.devRef .tc main_v12) = _
  generalize W5 m ρ c = W at e ⊢
  after_results
  exact e

end Cert.KernelIdeal.KVal

end
-- ==== Proof.Layer1.lean ====
/-
  The second layer at one entry: the kernel body's block result against the reference's layer.

  The same three-term sum as in the first layer, over 64 input features: the body adds the two matrix products and then
  the bias, the reference adds the bias to the first product and then the second product; at Ideal the two orders agree.
-/
import proofs.«421982_j91018946937012_1_alg».proof.Proof.Gen.KernelIdeal.Skeleton
import proofs.«421982_j91018946937012_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Layer1

open Idealize.ShloMosaic Idealize.ShloMosaic.ValueIdx
open Cert.KernelIdeal (S5000x128 S5000x64 S128x64 S64x64 S1x64)

/-! ## The body's matrix product at an entry -/

/-- The left operand's row coordinate is the output's row. -/
theorem lhs_dot_0 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl
/-- The left operand's column coordinate is the contraction's coordinate. -/
theorem lhs_dot_1 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
/-- The right operand's row coordinate is the contraction's coordinate. -/
theorem rhs_dot_0 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
/-- The right operand's column coordinate is the output's column. -/
theorem rhs_dot_1 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- A matrix product into the zero accumulator, read at `(r, j)`: the sum over the 64 features of the left operand's row
    `r` times the right operand's column `j`. -/
theorem matmul_point (a : FVec Ideal S5000x64 .bf16) (b : FVec Ideal S64x64 .bf16) (r : Fin 5000) (j : Fin 64) :
    matmul (F := Ideal) Cert.KernelIdeal.dot_S5000x64_S64x64_S5000x64_1_0_0_1_n_n none a b
        (constant (F := Ideal) S5000x64 .f32 0x00000000#32) (ix2 r j)
      = ∑ k : Fin 64, a (ix2 r k) * b (ix2 k j) := by
  simp only [matmul]
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 r j) ((ValueIdx.contrEquiv1 Cert.KernelIdeal.dot_S5000x64_S64x64_S5000x64_1_0_0_1_n_n 64 rfl rfl).symm k) = ix2 r k := funext fun c => Fin.ext (by
    match c with
    | ⟨0, _⟩ => exact lhs_dot_0 _ _
    | ⟨1, _⟩ => exact (lhs_dot_1 _ _).trans hk)
  have er : Cert.KernelIdeal.dot_S5000x64_S64x64_S5000x64_1_0_0_1_n_n.rhsIdx (ix2 r j) ((ValueIdx.contrEquiv1 Cert.KernelIdeal.dot_S5000x64_S64x64_S5000x64_1_0_0_1_n_n 64 rfl rfl).symm k) = ix2 k j := funext fun c => Fin.ext (by
    match c with
    | ⟨0, _⟩ => exact (rhs_dot_0 _ _).trans hk
    | ⟨1, _⟩ => exact rhs_dot_1 _ _)
  rw [el, er]

/-! ## The body's stored value at an entry -/

/-- The body's stored value at `(r, j)`: the two sums, then the bias, then the maximum with zero. -/
theorem pay_point (v0 v3 : Vec Ideal S5000x64 .f32) (v6 v9 : Vec Ideal S64x64 .f32) (v15 : Vec Ideal S1x64 .f32)
    (r : Fin 5000) (j : Fin 64) :
    Cert.KernelIdeal.Gen.k1_pay1 (F := Ideal) v0 v3 v6 v9 v15 (ix2 r j)
      = max (((∑ k : Fin 64, v0 (ix2 r k) * v6 (ix2 k j)) + (∑ k : Fin 64, v3 (ix2 r k) * v9 (ix2 k j)))
          + v15 (ix2 (0 : Fin 1) j)) (Ideal.ofBits .f32 0x00000000#32) := by
  unfold Cert.KernelIdeal.Gen.k1_pay1
  simp only [shapeCast_self]
  rw [maximumf_apply, addf_apply, addf_apply, broadcast_apply, broadcastTo_1b_ab_apply, matmul_point, matmul_point]
  simp only [truncf_apply]
  rfl

/-! ## The reference's layer at an entry -/

/-- The reference's second layer at `(R, j)`: the first sum, then the bias, then the second sum, then the maximum with zero. -/
theorem ref_point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (x5 : FVec Ideal Cert.ReferenceIdeal.S64x64 .f32) (x6 : FVec Ideal Cert.ReferenceIdeal.S64 .f32) (x7 : FVec Ideal Cert.ReferenceIdeal.S64x64 .f32)
    (R : Fin 100000) (j : Fin 64) :
    Cert.ReferenceIdeal.Read.val_main_v54 (F := Ideal) x0 x1 x2 x3 x4 x5 x6 x7 (ix2 R j)
      = max (((∑ k : Fin 64, Cert.ReferenceIdeal.Read.val_main_v45 (F := Ideal) x0 x1 x2 x3 x4 (ix2 R k)
                * Cert.ReferenceIdeal.Read.val_main_v46 (F := Ideal) x5 (ix2 k j)) + x6 (ix1 j))
          + ∑ k : Fin 64, Cert.ReferenceIdeal.Read.val_main_v33 (F := Ideal) x0 x1 x2 x3 x4 (ix2 R k)
                * Cert.ReferenceIdeal.Read.val_main_v51 (F := Ideal) x7 (ix2 k j))
        (Ideal.ofBits .f32 0x00000000#32) := by
  rw [Cert.ReferenceIdeal.Read.val_main_v54_apply, Cert.ReferenceIdeal.Read.val_main_v53_apply,
    Cert.ReferenceIdeal.Read.val_main_v50_apply, Cert.ReferenceIdeal.Read.val_main_v47_apply,
    Cert.ReferenceIdeal.Read.val_main_v52_apply, Cert.ReferenceIdeal.Read.val_main_v49_apply,
    Cert.ReferenceIdeal.Read.val_main_v48_apply, Cert.ReferenceIdeal.Read.val_main_call1_v0_apply,
    Cert.ReferenceIdeal.Read.val_main_call1_cst_apply]
  have el47 : ∀ k : Fin 64, Cert.ReferenceIdeal.Read.lidx_main_v47 (ix2 R j) k = ix2 R k := fun k =>
    funext fun c => Fin.ext (by match c with | ⟨0, _⟩ => rfl | ⟨1, _⟩ => rfl)
  have er47 : ∀ k : Fin 64, Cert.ReferenceIdeal.Read.ridx_main_v47 (ix2 R j) k = ix2 k j := fun k =>
    funext fun c => Fin.ext (by match c with | ⟨0, _⟩ => rfl | ⟨1, _⟩ => rfl)
  have el52 : ∀ k : Fin 64, Cert.ReferenceIdeal.Read.lidx_main_v52 (ix2 R j) k = ix2 R k := fun k =>
    funext fun c => Fin.ext (by match c with | ⟨0, _⟩ => rfl | ⟨1, _⟩ => rfl)
  have er52 : ∀ k : Fin 64, Cert.ReferenceIdeal.Read.ridx_main_v52 (ix2 R j) k = ix2 k j := fun k =>
    funext fun c => Fin.ext (by match c with | ⟨0, _⟩ => rfl | ⟨1, _⟩ => rfl)
  have eb : Cert.ReferenceIdeal.Read.idx_main_v48 (Cert.ReferenceIdeal.Read.idx_main_v49 (ix2 R j)) = ix1 j :=
    funext fun c => Fin.ext (by match c with | ⟨0, _⟩ => rfl)
  have s47 : (∑ k : Fin 64, Cert.ReferenceIdeal.Read.val_main_v45 (F := Ideal) x0 x1 x2 x3 x4 (Cert.ReferenceIdeal.Read.lidx_main_v47 (ix2 R j) k)
        * Cert.ReferenceIdeal.Read.val_main_v46 (F := Ideal) x5 (Cert.ReferenceIdeal.Read.ridx_main_v47 (ix2 R j) k))
      = ∑ k : Fin 64, Cert.ReferenceIdeal.Read.val_main_v45 (F := Ideal) x0 x1 x2 x3 x4 (ix2 R k)
        * Cert.ReferenceIdeal.Read.val_main_v46 (F := Ideal) x5 (ix2 k j) :=
    Finset.sum_congr rfl fun k _ => by rw [el47 k, er47 k]
  have s52 : (∑ k : Fin 64, Cert.ReferenceIdeal.Read.val_main_v33 (F := Ideal) x0 x1 x2 x3 x4 (Cert.ReferenceIdeal.Read.lidx_main_v52 (ix2 R j) k)
        * Cert.ReferenceIdeal.Read.val_main_v51 (F := Ideal) x7 (Cert.ReferenceIdeal.Read.ridx_main_v52 (ix2 R j) k))
      = ∑ k : Fin 64, Cert.ReferenceIdeal.Read.val_main_v33 (F := Ideal) x0 x1 x2 x3 x4 (ix2 R k)
        * Cert.ReferenceIdeal.Read.val_main_v51 (F := Ideal) x7 (ix2 k j) :=
    Finset.sum_congr rfl fun k _ => by rw [el52 k, er52 k]
  rw [eb, s47, s52]
  rfl

/-! ## The two against each other -/

/-- The body's stored value at `(r, j)` is the reference's second layer at `(R, j)`, when the loaded blocks hold row `R` of the
    aggregated first-layer output (`v0`) and of the first-layer output (`v3`), the two transposed weight matrices and the bias row. -/
theorem point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (x5 : FVec Ideal Cert.ReferenceIdeal.S64x64 .f32) (x6 : FVec Ideal Cert.ReferenceIdeal.S64 .f32) (x7 : FVec Ideal Cert.ReferenceIdeal.S64x64 .f32)
    (v0 v3 : Vec Ideal S5000x64 .f32) (v6 v9 : Vec Ideal S64x64 .f32) (v15 : Vec Ideal S1x64 .f32)
    (R : Fin 100000) (r : Fin 5000) (j : Fin 64)
    (h0 : ∀ k : Fin 64, v0 (ix2 r k) = Cert.ReferenceIdeal.Read.val_main_v45 (F := Ideal) x0 x1 x2 x3 x4 (ix2 R k))
    (h3 : ∀ k : Fin 64, v3 (ix2 r k) = Cert.ReferenceIdeal.Read.val_main_v33 (F := Ideal) x0 x1 x2 x3 x4 (ix2 R k))
    (h6 : ∀ k : Fin 64, v6 (ix2 k j) = Cert.ReferenceIdeal.Read.val_main_v46 (F := Ideal) x5 (ix2 k j))
    (h9 : ∀ k : Fin 64, v9 (ix2 k j) = Cert.ReferenceIdeal.Read.val_main_v51 (F := Ideal) x7 (ix2 k j))
    (h15 : v15 (ix2 (0 : Fin 1) j) = x6 (ix1 j)) :
    Cert.KernelIdeal.Gen.k1_pay1 (F := Ideal) v0 v3 v6 v9 v15 (ix2 r j)
      = Cert.ReferenceIdeal.Read.val_main_v54 (F := Ideal) x0 x1 x2 x3 x4 x5 x6 x7 (ix2 R j) := by
  have s1 : (∑ k : Fin 64, v0 (ix2 r k) * v6 (ix2 k j))
      = ∑ k : Fin 64, Cert.ReferenceIdeal.Read.val_main_v45 (F := Ideal) x0 x1 x2 x3 x4 (ix2 R k)
        * Cert.ReferenceIdeal.Read.val_main_v46 (F := Ideal) x5 (ix2 k j) :=
    Finset.sum_congr rfl fun k _ => by rw [h0 k, h6 k]
  have s2 : (∑ k : Fin 64, v3 (ix2 r k) * v9 (ix2 k j))
      = ∑ k : Fin 64, Cert.ReferenceIdeal.Read.val_main_v33 (F := Ideal) x0 x1 x2 x3 x4 (ix2 R k)
        * Cert.ReferenceIdeal.Read.val_main_v51 (F := Ideal) x7 (ix2 k j) :=
    Finset.sum_congr rfl fun k _ => by rw [h3 k, h9 k]
  rw [pay_point, ref_point, h15, s1, s2]
  exact congrArg (fun t => max t (Ideal.ofBits .f32 0x00000000#32)) (add_right_comm _ _ _)

end Cert.Layer1

end
-- ==== Proof.KRegion1.lean ====
/-
  What the second kernel region leaves in its output array.

  As in the first region: 20 grid points, point `t` reading and writing rows `5000·t … 5000·t + 4999`; each written entry is
  the reference's second layer at that entry, and the 20 row blocks cover the array.
-/
import proofs.«421982_j91018946937012_1_alg».proof.Proof.Gen.KernelIdeal.Frame
import proofs.«421982_j91018946937012_1_alg».proof.Proof.Gen.ReferenceIdeal.Read
import proofs.«421982_j91018946937012_1_alg».proof.Proof.Layer1
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v24 val_main_v25 val_main_v30 val_main_v33
  val_main_v45 val_main_v46 val_main_v51 val_main_v54 val_main_v66 val_main_v67 val_main_v72 val_main_v75)

variable (V : (c : Dev nD) → (b : Ref sig .tc) → Buf (Elt Ideal) ((c : Thread nD τ).loc b)) (c : Dev nD)

/-- The zero offsets of a whole-block rectangle, in the spelling the lemmas on such rectangles take. -/
theorem hz1 : (![0, 0] : Fin 2 → Nat) = fun _ => 0 := funext fun a => by fin_cases a <;> rfl

/-- The windows' block indices at every grid point: the two row-blocked inputs and the output are at block `(t, 0)`, the
    two weight matrices and the bias row at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block, read at an entry -/

/-- Point `t`'s block of the aggregated first-layer output, read at `(r, k)`, is the array's entry at row `5000·t + r`, column `k`. -/
theorem read_blk1_0 (G : (⟨S100000x64, .f32⟩ : BufTy).Contents (Elt Ideal)) (hA : V c (Pipeline.arrRef spec1 0) = G)
    (t : Fin cfg1.N) (r : Fin 5000) (k : Fin 64) (R : Fin 100000) (hR : R.val = 5000 * t.val + r.val) :
    iblk1 V c 0 t (ix2 r k) = G (ix2 R k) := by
  obtain ⟨e00, e01, e10, e11, -⟩ := idx_facts1 t
  show V c (Pipeline.arrRef spec1 0) (((cfg1.win 0).blk t).view.emb (ix2 r k)) = _
  rw [hA]
  refine congrArg G (funext fun a => Fin.ext ?_)
  match a with
  | ⟨0, _⟩ => show win1_0.index t (0 : Fin 2) * 5000 + 1 * r.val = R.val; omega
  | ⟨1, _⟩ => show win1_0.index t (1 : Fin 2) * 64 + 1 * k.val = k.val; omega

/-- Point `t`'s block of the first-layer output, read at `(r, k)`, is the array's entry at row `5000·t + r`, column `k`. -/
theorem read_blk1_1 (G : (⟨S100000x64, .f32⟩ : BufTy).Contents (Elt Ideal)) (hA : V c (Pipeline.arrRef spec1 1) = G)
    (t : Fin cfg1.N) (r : Fin 5000) (k : Fin 64) (R : Fin 100000) (hR : R.val = 5000 * t.val + r.val) :
    iblk1 V c 1 t (ix2 r k) = G (ix2 R k) := by
  obtain ⟨e00, e01, e10, e11, -⟩ := idx_facts1 t
  show V c (Pipeline.arrRef spec1 1) (((cfg1.win 1).blk t).view.emb (ix2 r k)) = _
  rw [hA]
  refine congrArg G (funext fun a => Fin.ext ?_)
  match a with
  | ⟨0, _⟩ => show win1_1.index t (0 : Fin 2) * 5000 + 1 * r.val = R.val; omega
  | ⟨1, _⟩ => show win1_1.index t (1 : Fin 2) * 64 + 1 * k.val = k.val; omega

/-- Point `t`'s block of the first weight matrix is the whole matrix. -/
theorem read_blk1_2 (G : (⟨S64x64, .f32⟩ : BufTy).Contents (Elt Ideal)) (hA : V c (Pipeline.arrRef spec1 2) = G)
    (t : Fin cfg1.N) (k : Fin 64) (j : Fin 64) :
    iblk1 V c 2 t (ix2 k j) = G (ix2 k j) := by
  obtain ⟨-, -, -, -, e20, e21, e30, e31, -⟩ := idx_facts1 t
  show V c (Pipeline.arrRef spec1 2) (((cfg1.win 2).blk t).view.emb (ix2 k j)) = _
  rw [hA]
  refine congrArg G (funext fun a => Fin.ext ?_)
  match a with
  | ⟨0, _⟩ => show win1_2.index t (0 : Fin 2) * 64 + 1 * k.val = k.val; omega
  | ⟨1, _⟩ => show win1_2.index t (1 : Fin 2) * 64 + 1 * j.val = j.val; omega

/-- Point `t`'s block of the second weight matrix is the whole matrix. -/
theorem read_blk1_3 (G : (⟨S64x64, .f32⟩ : BufTy).Contents (Elt Ideal)) (hA : V c (Pipeline.arrRef spec1 3) = G)
    (t : Fin cfg1.N) (k : Fin 64) (j : Fin 64) :
    iblk1 V c 3 t (ix2 k j) = G (ix2 k j) := by
  obtain ⟨-, -, -, -, e20, e21, e30, e31, -⟩ := idx_facts1 t
  show V c (Pipeline.arrRef spec1 3) (((cfg1.win 3).blk t).view.emb (ix2 k j)) = _
  rw [hA]
  refine congrArg G (funext fun a => Fin.ext ?_)
  match a with
  | ⟨0, _⟩ => show win1_3.index t (0 : Fin 2) * 64 + 1 * k.val = k.val; omega
  | ⟨1, _⟩ => show win1_3.index t (1 : Fin 2) * 64 + 1 * j.val = j.val; omega

/-- Point `t`'s block of the bias row is the whole row: the bias vector laid out as one row. -/
theorem read_blk1_4 (b : (⟨Cert.ReferenceIdeal.S64, .f32⟩ : BufTy).Contents (Elt Ideal))
    (hA : V c (Pipeline.arrRef spec1 4) = shapeCast S1x64 b Facts₀.shapeCasts_S64_S1x64) (t : Fin cfg1.N) (j : Fin 64) :
    iblk1 V c 4 t (ix2 (0 : Fin 1) j) = b (ix1 j) := by
  obtain ⟨-, -, -, -, -, -, -, -, e40, e41, -⟩ := idx_facts1 t
  show V c (Pipeline.arrRef spec1 4) (((cfg1.win 4).blk t).view.emb (ix2 (0 : Fin 1) j)) = _
  rw [hA]
  refine Eq.trans (congrArg (shapeCast S1x64 b Facts₀.shapeCasts_S64_S1x64) (funext fun a => Fin.ext ?_))
    (shapeCast_a_1a_apply b Facts₀.shapeCasts_S64_S1x64 (0 : Fin 1) j)
  match a with
  | ⟨0, _⟩ => show win1_4.index t (0 : Fin 2) * 1 + 1 * 0 = 0; omega
  | ⟨1, _⟩ => show win1_4.index t (1 : Fin 2) * 64 + 1 * j.val = j.val; omega

/-- Point `t`'s block of the output array, read from any contents `G` of that array, holds at `(r, j)` the entry of `G` at
    row `5000·t + r`, column `j`. -/
theorem read_out_blk1 (G : (⟨S100000x64, .f32⟩ : BufTy).Contents (Elt Ideal)) (t : Fin cfg1.N) (r : Fin 5000) (j : Fin 64)
    (R : Fin 100000) (hR : R.val = 5000 * t.val + r.val) :
    ((cfg1.win 5).blk t).view.read (Elt Ideal) G (ix2 r j) = G (ix2 R j) := by
  obtain ⟨-, -, -, -, -, -, -, -, -, -, e50, e51⟩ := idx_facts1 t
  show G (((cfg1.win 5).blk t).view.emb (ix2 r j)) = _
  refine congrArg G (funext fun a => Fin.ext ?_)
  match a with
  | ⟨0, _⟩ => show win1_5.index t (0 : Fin 2) * 5000 + 1 * r.val = R.val; omega
  | ⟨1, _⟩ => show win1_5.index t (1 : Fin 2) * 64 + 1 * j.val = j.val; omega

/-! ## What a point writes back, and the cover -/

/-- WHAT POINT `t` WRITES BACK is rows `5000·t … 5000·t + 4999` of the reference's second layer. -/
theorem flushed1_eq
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (hA0 : V c (Pipeline.arrRef spec1 0) = val_main_v45 (F := Ideal) x0 x1 x2 x3 x4)
    (hA1 : V c (Pipeline.arrRef spec1 1) = val_main_v33 (F := Ideal) x0 x1 x2 x3 x4)
    (hA2 : V c (Pipeline.arrRef spec1 2) = val_main_v46 (F := Ideal) x5)
    (hA3 : V c (Pipeline.arrRef spec1 3) = val_main_v51 (F := Ideal) x7)
    (hA4 : V c (Pipeline.arrRef spec1 4) = shapeCast S1x64 x6 Facts₀.shapeCasts_S64_S1x64) (t : Fin cfg1.N) :
    (dat1 (F := Ideal) V c).flushed 5 t
      = ((cfg1.win 5).blk t).view.read (Elt Ideal) (val_main_v54 (F := Ideal) x0 x1 x2 x3 x4 x5 x6 x7) := by
  show (cfg1.win 5).cut (grid1.coords t) ((dat1 (F := Ideal) V c).after 5 t) = _
  rw [after1_5]
  unfold out1_5
  rw [View.canon_unit_zero hz1]
  simp only [View.ld_unit_zero (S := S5000x64) hz1, View.ld_unit_zero (S := S64x64) hz1, View.ld_unit_zero (S := S1x64) hz1]
  funext y
  obtain ⟨r, j, rfl⟩ : ∃ (r : Fin 5000) (j : Fin 64), y = ix2 r j := ⟨y 0, y 1, eq_ix2 y⟩
  have ht : t.val < 20 := Nat.lt_of_lt_of_eq t.isLt N_1
  -- the array's row under row `r` of point `t`'s blocks
  obtain ⟨R, hR⟩ : ∃ R : Fin 100000, R.val = 5000 * t.val + r.val := ⟨⟨5000 * t.val + r.val, by omega⟩, rfl⟩
  exact (Cert.Layer1.point x0 x1 x2 x3 x4 x5 x6 x7 (iblk1 V c 0 t) (iblk1 V c 1 t) (iblk1 V c 2 t) (iblk1 V c 3 t) (iblk1 V c 4 t) R r j
    (fun k => read_blk1_0 V c (val_main_v45 (F := Ideal) x0 x1 x2 x3 x4) hA0 t r k R hR)
    (fun k => read_blk1_1 V c (val_main_v33 (F := Ideal) x0 x1 x2 x3 x4) hA1 t r k R hR)
    (fun k => read_blk1_2 V c (val_main_v46 (F := Ideal) x5) hA2 t k j)
    (fun k => read_blk1_3 V c (val_main_v51 (F := Ideal) x7) hA3 t k j)
    (read_blk1_4 V c x6 hA4 t j)).trans
    (read_out_blk1 (val_main_v54 (F := Ideal) x0 x1 x2 x3 x4 x5 x6 x7) t r j R hR).symm

/-- An entry of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v32).slice (win1_5.rect t)).set ↔ _
  rw [View.set_slice_whole, Rect.mem_set_unit]
  exact Iff.rfl

/-- The 20 row blocks cover the output array: row `R` is in the block of point `R / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, htv⟩ : ∃ t : Fin cfg1.N, t.val = (i 0).val / 5000 :=
    ⟨⟨(i 0).val / 5000, by rw [show cfg1.N = 20 from N_1]; omega⟩, rfl⟩
  obtain ⟨-, -, -, -, -, -, -, -, -, -, e50, e51⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The output array after the region is the reference's second layer, when the region's five input arrays hold the
    aggregated first-layer output, the first-layer output, the two transposed weight matrices and the bias row. -/
theorem region1_out
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (hA0 : V c (Pipeline.arrRef spec1 0) = val_main_v45 (F := Ideal) x0 x1 x2 x3 x4)
    (hA1 : V c (Pipeline.arrRef spec1 1) = val_main_v33 (F := Ideal) x0 x1 x2 x3 x4)
    (hA2 : V c (Pipeline.arrRef spec1 2) = val_main_v46 (F := Ideal) x5)
    (hA3 : V c (Pipeline.arrRef spec1 3) = val_main_v51 (F := Ideal) x7)
    (hA4 : V c (Pipeline.arrRef spec1 4) = shapeCast S1x64 x6 Facts₀.shapeCasts_S64_S1x64) :
    (dat1 (F := Ideal) V c).arrAt 5 cfg1.N = val_main_v54 (F := Ideal) x0 x1 x2 x3 x4 x5 x6 x7 := by
  exact (dat1 (F := Ideal) V c).arrAt_eq_of_cover 5 (val_main_v54 (F := Ideal) x0 x1 x2 x3 x4 x5 x6 x7)
    (fun t _ => flushed1_eq V c x0 x1 x2 x3 x4 x5 x6 x7 hA0 hA1 hA2 hA3 hA4 t) cover1

end Cert.KernelIdeal.KVal

end
-- ==== Proof.KStage2.lean ====
/-
  The contents of the buffers when the third kernel region is entered, as functions of the argument arrays.

  The second region leaves the reference's second layer in its output array and touches nothing else. The host
  operations between the regions take the source rows of that layer (with every source index in range the filled take
  is the reference's gather), sum them into their destination rows, scale by the inverse degree, and transpose the third
  layer's two weight matrices. Each buffer is read back through the operations that wrote it and meets the reference's
  own stage of the same operations.
-/
import proofs.«421982_j91018946937012_1_alg».proof.Proof.Gen.KernelIdeal.Frame
import proofs.«421982_j91018946937012_1_alg».proof.Proof.Gen.ReferenceIdeal.Read
import proofs.«421982_j91018946937012_1_alg».proof.Proof.KTake
import proofs.«421982_j91018946937012_1_alg».proof.Proof.KStage1
import proofs.«421982_j91018946937012_1_alg».proof.Proof.KRegion1
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v12 val_main_v54 val_main_v61 val_main_v66 val_main_v67 val_main_v72)

variable (m : (ℓ : Loc nD τ sig) → Buf (Elt Ideal) ℓ) (ρ : Dev nD → PrngReg) (c : Dev nD)

/-! ## At the second region's exit -/

/-- The second region's output array holds the reference's second layer. -/
theorem W7_v32 (hs : SrcOk (m ((c : Thread nD τ).loc main_arg1))) :
    W7 m ρ c (Proc.devRef .tc main_v32)
      = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W7_arr m ρ c 5).trans (region1_out (V6 m ρ) c _ _ _ _ _ _ _ _
    (W6_v28 m ρ c hs) (W6_v22 m ρ c hs) (W6_v29 m ρ c) (W6_v30 m ρ c) (W6_v31 m ρ c))

theorem W7_v1 : W7 m ρ c (Proc.devRef .tc main_v1) = val_main_v1 (F := Ideal) (m ((c : Thread nD τ).loc main_arg1)) :=
  (W7_of_ne m ρ c main_v1 (by decide)).trans (W6_v1 m ρ c)

theorem W7_v3 : W7 m ρ c (Proc.devRef .tc main_v3) = val_main_v3 (F := Ideal) (m ((c : Thread nD τ).loc main_arg1)) :=
  (W7_of_ne m ρ c main_v3 (by decide)).trans (W6_v3 m ρ c)

theorem W7_v12 : W7 m ρ c (Proc.devRef .tc main_v12) = val_main_v12 (F := Ideal) (m ((c : Thread nD τ).loc main_arg1)) :=
  (W7_of_ne m ρ c main_v12 (by decide)).trans (W6_v12 m ρ c)

/-- The last layers' argument arrays are as launched at the second region's exit: the region's arrays are none of them. -/
theorem W7_arg (b : Ref sig .tc) (hb : b = main_arg8 ∨ b = main_arg9 ∨ b = main_arg10 ∨ b = main_arg11 ∨ b = main_arg12) :
    W7 m ρ c (Proc.devRef .tc b) = m ((c : Thread nD τ).loc b) := by
  rcases hb with rfl | rfl | rfl | rfl | rfl <;>
    exact (W7_of_ne m ρ c _ (by decide)).trans (W6_arg m ρ c _ (by simp))

/-! ## After the take: the source rows of the second layer -/

set_option maxHeartbeats 2000000 in
/-- The take's result buffer, read back through the take's operations from any contents `W`: the filled take of the
    second layer at `W` through the source-index vector at `W`. -/
theorem take2_read (W : Valuation τ sig (Elt Ideal)) :
    StableHlo.after hostOps2 W (Proc.devRef .tc main_v33)
      = takeFill64 (W (Proc.devRef .tc main_v32)) (W (Proc.devRef .tc main_v1)) := by
  after_results_simp
  simp only [ofBuf_toBuf]
  refine eq_of_heq ((cast_heq _ _).trans (heq_of_eq ?_))
  rfl

/-- With every source index in range the take is the reference's gather of the second layer's rows. -/
theorem W8_v33 (hs : SrcOk (m ((c : Thread nD τ).loc main_arg1))) :
    W8 m ρ c (Proc.devRef .tc main_v33)
      = val_main_v61 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  show StableHlo.after hostOps2 (W7 m ρ c) (Proc.devRef .tc main_v33) = _
  rw [take2_read, W7_v32 m ρ c hs, W7_v1]
  exact (takeFill64_eq _ _ hs).trans rfl

theorem W8_v3 : W8 m ρ c (Proc.devRef .tc main_v3) = val_main_v3 (F := Ideal) (m ((c : Thread nD τ).loc main_arg1)) := by
  have e := W7_v3 m ρ c
  show StableHlo.after hostOps2 (W7 m ρ c) (Proc.devRef .tc main_v3) = _
  generalize W7 m ρ c = W at e ⊢
  after_results
  exact e

theorem W8_v12 : W8 m ρ c (Proc.devRef .tc main_v12) = val_main_v12 (F := Ideal) (m ((c : Thread nD τ).loc main_arg1)) := by
  have e := W7_v12 m ρ c
  show StableHlo.after hostOps2 (W7 m ρ c) (Proc.devRef .tc main_v12) = _
  generalize W7 m ρ c = W at e ⊢
  after_results
  exact e

theorem W8_v32 (hs : SrcOk (m ((c : Thread nD τ).loc main_arg1))) :
    W8 m ρ c (Proc.devRef .tc main_v32)
      = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have e := W7_v32 m ρ c hs
  show StableHlo.after hostOps2 (W7 m ρ c) (Proc.devRef .tc main_v32) = _
  generalize W7 m ρ c = W at e ⊢
  after_results
  exact e

/-! ## At the third region's entry -/

/-- The aggregated second layer: the taken rows summed into their destination rows, scaled by the inverse degree. -/
theorem W9_v38 (hs : SrcOk (m ((c : Thread nD τ).loc main_arg1))) :
    W9 m ρ c (Proc.devRef .tc main_v38)
      = val_main_v66 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have e33 := W8_v33 m ρ c hs
  have e3 := W8_v3 m ρ c
  have e12 := W8_v12 m ρ c
  show StableHlo.after hostOps2_1 (W8 m ρ c) (Proc.devRef .tc main_v38) = _
  generalize W8 m ρ c = W at e33 e3 e12 ⊢
  after_results
  rw [e33, e3, e12]
  rfl

theorem W9_v32 (hs : SrcOk (m ((c : Thread nD τ).loc main_arg1))) :
    W9 m ρ c (Proc.devRef .tc main_v32)
      = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have e := W8_v32 m ρ c hs
  show StableHlo.after hostOps2_1 (W8 m ρ c) (Proc.devRef .tc main_v32) = _
  generalize W8 m ρ c = W at e ⊢
  after_results
  exact e

set_option maxHeartbeats 4000000 in
/-- The classifier's argument arrays are as launched when the third region is entered. -/
theorem W9_arg (b : Ref sig .tc) (hb : b = main_arg11 ∨ b = main_arg12) :
    W9 m ρ c (Proc.devRef .tc b) = m ((c : Thread nD τ).loc b) := by
  have e := W7_arg m ρ c b (by rcases hb with rfl | rfl <;> simp)
  show StableHlo.after hostOps2_1 (StableHlo.after hostOps2 (W7 m ρ c)) (Proc.devRef .tc b) = _
  generalize W7 m ρ c = W at e ⊢
  rcases hb with rfl | rfl <;> (after_results_simp <;> exact e)

set_option maxHeartbeats 1000000 in
theorem W9_v39 : W9 m ρ c (Proc.devRef .tc main_v39) = val_main_v67 (F := Ideal) (m ((c : Thread nD τ).loc main_arg8)) := by
  have e := W7_arg m ρ c main_arg8 (by simp)
  show StableHlo.after hostOps2_1 (StableHlo.after hostOps2 (W7 m ρ c)) (Proc.devRef .tc main_v39) = _
  generalize W7 m ρ c = W at e ⊢
  after_results_simp
  rw [e]
  rfl

set_option maxHeartbeats 1000000 in
theorem W9_v40 : W9 m ρ c (Proc.devRef .tc main_v40) = val_main_v72 (F := Ideal) (m ((c : Thread nD τ).loc main_arg10)) := by
  have e := W7_arg m ρ c main_arg10 (by simp)
  show StableHlo.after hostOps2_1 (StableHlo.after hostOps2 (W7 m ρ c)) (Proc.devRef .tc main_v40) = _
  generalize W7 m ρ c = W at e ⊢
  after_results_simp
  rw [e]
  rfl

set_option maxHeartbeats 1000000 in
/-- The bias row of the third layer: the bias vector laid out as one row. -/
theorem W9_v41 : W9 m ρ c (Proc.devRef .tc main_v41)
    = shapeCast S1x64 (m ((c : Thread nD τ).loc main_arg9)) Facts₀.shapeCasts_S64_S1x64 := by
  have e := W7_arg m ρ c main_arg9 (by simp)
  show StableHlo.after hostOps2_1 (StableHlo.after hostOps2 (W7 m ρ c)) (Proc.devRef .tc main_v41) = _
  generalize W7 m ρ c = W at e ⊢
  after_results_simp
  rw [e]
  rfl

end Cert.KernelIdeal.KVal

end
-- ==== Proof.Layer2.lean ====
/-
  The third layer at one entry: the kernel body's block result against the reference's layer.

  The same three-term sum as in the other layers, over 64 input features, with the third layer's weights and bias.
-/
import proofs.«421982_j91018946937012_1_alg».proof.Proof.Gen.KernelIdeal.Skeleton
import proofs.«421982_j91018946937012_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Layer2

open Idealize.ShloMosaic Idealize.ShloMosaic.ValueIdx
open Cert.KernelIdeal (S5000x128 S5000x64 S128x64 S64x64 S1x64)

/-! ## The body's matrix product at an entry -/

/-- The left operand's row coordinate is the output's row. -/
theorem lhs_dot_0 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl
/-- The left operand's column coordinate is the contraction's coordinate. -/
theorem lhs_dot_1 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
/-- The right operand's row coordinate is the contraction's coordinate. -/
theorem rhs_dot_0 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
/-- The right operand's column coordinate is the output's column. -/
theorem rhs_dot_1 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- A matrix product into the zero accumulator, read at `(r, j)`: the sum over the 64 features of the left operand's row
    `r` times the right operand's column `j`. -/
theorem matmul_point (a : FVec Ideal S5000x64 .bf16) (b : FVec Ideal S64x64 .bf16) (r : Fin 5000) (j : Fin 64) :
    matmul (F := Ideal) Cert.KernelIdeal.dot_S5000x64_S64x64_S5000x64_1_0_0_1_n_n none a b
        (constant (F := Ideal) S5000x64 .f32 0x00000000#32) (ix2 r j)
      = ∑ k : Fin 64, a (ix2 r k) * b (ix2 k j) := by
  simp only [matmul]
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 r j) ((ValueIdx.contrEquiv1 Cert.KernelIdeal.dot_S5000x64_S64x64_S5000x64_1_0_0_1_n_n 64 rfl rfl).symm k) = ix2 r k := funext fun c => Fin.ext (by
    match c with
    | ⟨0, _⟩ => exact lhs_dot_0 _ _
    | ⟨1, _⟩ => exact (lhs_dot_1 _ _).trans hk)
  have er : Cert.KernelIdeal.dot_S5000x64_S64x64_S5000x64_1_0_0_1_n_n.rhsIdx (ix2 r j) ((ValueIdx.contrEquiv1 Cert.KernelIdeal.dot_S5000x64_S64x64_S5000x64_1_0_0_1_n_n 64 rfl rfl).symm k) = ix2 k j := funext fun c => Fin.ext (by
    match c with
    | ⟨0, _⟩ => exact (rhs_dot_0 _ _).trans hk
    | ⟨1, _⟩ => exact rhs_dot_1 _ _)
  rw [el, er]

/-! ## The body's stored value at an entry -/

/-- The body's stored value at `(r, j)`: the two sums, then the bias, then the maximum with zero. -/
theorem pay_point (v0 v3 : Vec Ideal S5000x64 .f32) (v6 v9 : Vec Ideal S64x64 .f32) (v15 : Vec Ideal S1x64 .f32)
    (r : Fin 5000) (j : Fin 64) :
    Cert.KernelIdeal.Gen.k2_pay1 (F := Ideal) v0 v3 v6 v9 v15 (ix2 r j)
      = max (((∑ k : Fin 64, v0 (ix2 r k) * v6 (ix2 k j)) + (∑ k : Fin 64, v3 (ix2 r k) * v9 (ix2 k j)))
          + v15 (ix2 (0 : Fin 1) j)) (Ideal.ofBits .f32 0x00000000#32) := by
  unfold Cert.KernelIdeal.Gen.k2_pay1
  simp only [shapeCast_self]
  rw [maximumf_apply, addf_apply, addf_apply, broadcast_apply, broadcastTo_1b_ab_apply, matmul_point, matmul_point]
  simp only [truncf_apply]
  rfl

/-! ## The reference's layer at an entry -/

/-- The reference's third layer at `(R, j)`: the first sum, then the bias, then the second sum, then the maximum with zero. -/
theorem ref_point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (x5 : FVec Ideal Cert.ReferenceIdeal.S64x64 .f32) (x6 : FVec Ideal Cert.ReferenceIdeal.S64 .f32) (x7 x8 : FVec Ideal Cert.ReferenceIdeal.S64x64 .f32)
    (x9 : FVec Ideal Cert.ReferenceIdeal.S64 .f32) (x10 : FVec Ideal Cert.ReferenceIdeal.S64x64 .f32)
    (R : Fin 100000) (j : Fin 64) :
    Cert.ReferenceIdeal.Read.val_main_v75 (F := Ideal) x0 x1 x2 x3 x4 x5 x6 x7 x8 x9 x10 (ix2 R j)
      = max (((∑ k : Fin 64, Cert.ReferenceIdeal.Read.val_main_v66 (F := Ideal) x0 x1 x2 x3 x4 x5 x6 x7 (ix2 R k)
                * Cert.ReferenceIdeal.Read.val_main_v67 (F := Ideal) x8 (ix2 k j)) + x9 (ix1 j))
          + ∑ k : Fin 64, Cert.ReferenceIdeal.Read.val_main_v54 (F := Ideal) x0 x1 x2 x3 x4 x5 x6 x7 (ix2 R k)
                * Cert.ReferenceIdeal.Read.val_main_v72 (F := Ideal) x10 (ix2 k j))
        (Ideal.ofBits .f32 0x00000000#32) := by
  rw [Cert.ReferenceIdeal.Read.val_main_v75_apply, Cert.ReferenceIdeal.Read.val_main_v74_apply,
    Cert.ReferenceIdeal.Read.val_main_v71_apply, Cert.ReferenceIdeal.Read.val_main_v68_apply,
    Cert.ReferenceIdeal.Read.val_main_v73_apply, Cert.ReferenceIdeal.Read.val_main_v70_apply,
    Cert.ReferenceIdeal.Read.val_main_v69_apply, Cert.ReferenceIdeal.Read.val_main_call2_v0_apply,
    Cert.ReferenceIdeal.Read.val_main_call2_cst_apply]
  have el68 : ∀ k : Fin 64, Cert.ReferenceIdeal.Read.lidx_main_v68 (ix2 R j) k = ix2 R k := fun k =>
    funext fun c => Fin.ext (by match c with | ⟨0, _⟩ => rfl | ⟨1, _⟩ => rfl)
  have er68 : ∀ k : Fin 64, Cert.ReferenceIdeal.Read.ridx_main_v68 (ix2 R j) k = ix2 k j := fun k =>
    funext fun c => Fin.ext (by match c with | ⟨0, _⟩ => rfl | ⟨1, _⟩ => rfl)
  have el73 : ∀ k : Fin 64, Cert.ReferenceIdeal.Read.lidx_main_v73 (ix2 R j) k = ix2 R k := fun k =>
    funext fun c => Fin.ext (by match c with | ⟨0, _⟩ => rfl | ⟨1, _⟩ => rfl)
  have er73 : ∀ k : Fin 64, Cert.ReferenceIdeal.Read.ridx_main_v73 (ix2 R j) k = ix2 k j := fun k =>
    funext fun c => Fin.ext (by match c with | ⟨0, _⟩ => rfl | ⟨1, _⟩ => rfl)
  have eb : Cert.ReferenceIdeal.Read.idx_main_v69 (Cert.ReferenceIdeal.Read.idx_main_v70 (ix2 R j)) = ix1 j :=
    funext fun c => Fin.ext (by match c with | ⟨0, _⟩ => rfl)
  have s68 : (∑ k : Fin 64, Cert.ReferenceIdeal.Read.val_main_v66 (F := Ideal) x0 x1 x2 x3 x4 x5 x6 x7 (Cert.ReferenceIdeal.Read.lidx_main_v68 (ix2 R j) k)
        * Cert.ReferenceIdeal.Read.val_main_v67 (F := Ideal) x8 (Cert.ReferenceIdeal.Read.ridx_main_v68 (ix2 R j) k))
      = ∑ k : Fin 64, Cert.ReferenceIdeal.Read.val_main_v66 (F := Ideal) x0 x1 x2 x3 x4 x5 x6 x7 (ix2 R k)
        * Cert.ReferenceIdeal.Read.val_main_v67 (F := Ideal) x8 (ix2 k j) :=
    Finset.sum_congr rfl fun k _ => by rw [el68 k, er68 k]
  have s73 : (∑ k : Fin 64, Cert.ReferenceIdeal.Read.val_main_v54 (F := Ideal) x0 x1 x2 x3 x4 x5 x6 x7 (Cert.ReferenceIdeal.Read.lidx_main_v73 (ix2 R j) k)
        * Cert.ReferenceIdeal.Read.val_main_v72 (F := Ideal) x10 (Cert.ReferenceIdeal.Read.ridx_main_v73 (ix2 R j) k))
      = ∑ k : Fin 64, Cert.ReferenceIdeal.Read.val_main_v54 (F := Ideal) x0 x1 x2 x3 x4 x5 x6 x7 (ix2 R k)
        * Cert.ReferenceIdeal.Read.val_main_v72 (F := Ideal) x10 (ix2 k j) :=
    Finset.sum_congr rfl fun k _ => by rw [el73 k, er73 k]
  rw [eb, s68, s73]
  rfl

/-! ## The two against each other -/

/-- The body's stored value at `(r, j)` is the reference's third layer at `(R, j)`, when the loaded blocks hold row `R` of the
    aggregated second-layer output (`v0`) and of the second-layer output (`v3`), the two transposed weight matrices and the bias row. -/
theorem point (x0 : FVec Ideal Cert.ReferenceIdeal.S100000x128 .f32) (x1 : IVec Cert.ReferenceIdeal.S2x1600000 32)
    (x2 : FVec Ideal Cert.ReferenceIdeal.S64x128 .f32) (x3 : FVec Ideal Cert.ReferenceIdeal.S64 .f32) (x4 : FVec Ideal Cert.ReferenceIdeal.S64x128 .f32)
    (x5 : FVec Ideal Cert.ReferenceIdeal.S64x64 .f32) (x6 : FVec Ideal Cert.ReferenceIdeal.S64 .f32) (x7 x8 : FVec Ideal Cert.ReferenceIdeal.S64x64 .f32)
    (x9 : FVec Ideal Cert.ReferenceIdeal.S64 .f32) (x10 : FVec Ideal Cert.ReferenceIdeal.S64x64 .f32)
    (v0 v3 : Vec Ideal S5000x64 .f32) (v6 v9 : Vec Ideal S64x64 .f32) (v15 : Vec Ideal S1x64 .f32)
    (R : Fin 100000) (r : Fin 5000) (j : Fin 64)
    (h0 : ∀ k : Fin 64, v0 (ix2 r k) = Cert.ReferenceIdeal.Read.val_main_v66 (F := Ideal) x0 x1 x2 x3 x4 x5 x6 x7 (ix2 R k))
    (h3 : ∀ k : Fin 64, v3 (ix2 r k) = Cert.ReferenceIdeal.Read.val_main_v54 (F := Ideal) x0 x1 x2 x3 x4 x5 x6 x7 (ix2 R k))
    (h6 : ∀ k : Fin 64, v6 (ix2 k j) = Cert.ReferenceIdeal.Read.val_main_v67 (F := Ideal) x8 (ix2 k j))
    (h9 : ∀ k : Fin 64, v9 (ix2 k j) = Cert.ReferenceIdeal.Read.val_main_v72 (F := Ideal) x10 (ix2 k j))
    (h15 : v15 (ix2 (0 : Fin 1) j) = x9 (ix1 j)) :
    Cert.KernelIdeal.Gen.k2_pay1 (F := Ideal) v0 v3 v6 v9 v15 (ix2 r j)
      = Cert.ReferenceIdeal.Read.val_main_v75 (F := Ideal) x0 x1 x2 x3 x4 x5 x6 x7 x8 x9 x10 (ix2 R j) := by
  have s1 : (∑ k : Fin 64, v0 (ix2 r k) * v6 (ix2 k j))
      = ∑ k : Fin 64, Cert.ReferenceIdeal.Read.val_main_v66 (F := Ideal) x0 x1 x2 x3 x4 x5 x6 x7 (ix2 R k)
        * Cert.ReferenceIdeal.Read.val_main_v67 (F := Ideal) x8 (ix2 k j) :=
    Finset.sum_congr rfl fun k _ => by rw [h0 k, h6 k]
  have s2 : (∑ k : Fin 64, v3 (ix2 r k) * v9 (ix2 k j))
      = ∑ k : Fin 64, Cert.ReferenceIdeal.Read.val_main_v54 (F := Ideal) x0 x1 x2 x3 x4 x5 x6 x7 (ix2 R k)
        * Cert.ReferenceIdeal.Read.val_main_v72 (F := Ideal) x10 (ix2 k j) :=
    Finset.sum_congr rfl fun k _ => by rw [h3 k, h9 k]
  rw [pay_point, ref_point, h15, s1, s2]
  exact congrArg (fun t => max t (Ideal.ofBits .f32 0x00000000#32)) (add_right_comm _ _ _)

end Cert.Layer2

end
-- ==== Proof.KRegion2.lean ====
/-
  What the third kernel region leaves in its output array.

  As in the other regions: 20 grid points, point `t` reading and writing rows `5000·t … 5000·t + 4999`; each written entry is
  the reference's third layer at that entry, and the 20 row blocks cover the array.
-/
import proofs.«421982_j91018946937012_1_alg».proof.Proof.Gen.KernelIdeal.Frame
import proofs.«421982_j91018946937012_1_alg».proof.Proof.Gen.ReferenceIdeal.Read
import proofs.«421982_j91018946937012_1_alg».proof.Proof.Layer2
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v24 val_main_v25 val_main_v30 val_main_v33
  val_main_v45 val_main_v46 val_main_v51 val_main_v54 val_main_v66 val_main_v67 val_main_v72 val_main_v75)

variable (V : (c : Dev nD) → (b : Ref sig .tc) → Buf (Elt Ideal) ((c : Thread nD τ).loc b)) (c : Dev nD)

/-- The zero offsets of a whole-block rectangle, in the spelling the lemmas on such rectangles take. -/
theorem hz2 : (![0, 0] : Fin 2 → Nat) = fun _ => 0 := funext fun a => by fin_cases a <;> rfl

/-- The windows' block indices at every grid point: the two row-blocked inputs and the output are at block `(t, 0)`, the
    two weight matrices and the bias row at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## Each window's block, read at an entry -/

/-- Point `t`'s block of the aggregated second-layer output, read at `(r, k)`, is the array's entry at row `5000·t + r`, column `k`. -/
theorem read_blk2_0 (G : (⟨S100000x64, .f32⟩ : BufTy).Contents (Elt Ideal)) (hA : V c (Pipeline.arrRef spec2 0) = G)
    (t : Fin cfg2.N) (r : Fin 5000) (k : Fin 64) (R : Fin 100000) (hR : R.val = 5000 * t.val + r.val) :
    iblk2 V c 0 t (ix2 r k) = G (ix2 R k) := by
  obtain ⟨e00, e01, e10, e11, -⟩ := idx_facts2 t
  show V c (Pipeline.arrRef spec2 0) (((cfg2.win 0).blk t).view.emb (ix2 r k)) = _
  rw [hA]
  refine congrArg G (funext fun a => Fin.ext ?_)
  match a with
  | ⟨0, _⟩ => show win2_0.index t (0 : Fin 2) * 5000 + 1 * r.val = R.val; omega
  | ⟨1, _⟩ => show win2_0.index t (1 : Fin 2) * 64 + 1 * k.val = k.val; omega

/-- Point `t`'s block of the second-layer output, read at `(r, k)`, is the array's entry at row `5000·t + r`, column `k`. -/
theorem read_blk2_1 (G : (⟨S100000x64, .f32⟩ : BufTy).Contents (Elt Ideal)) (hA : V c (Pipeline.arrRef spec2 1) = G)
    (t : Fin cfg2.N) (r : Fin 5000) (k : Fin 64) (R : Fin 100000) (hR : R.val = 5000 * t.val + r.val) :
    iblk2 V c 1 t (ix2 r k) = G (ix2 R k) := by
  obtain ⟨e00, e01, e10, e11, -⟩ := idx_facts2 t
  show V c (Pipeline.arrRef spec2 1) (((cfg2.win 1).blk t).view.emb (ix2 r k)) = _
  rw [hA]
  refine congrArg G (funext fun a => Fin.ext ?_)
  match a with
  | ⟨0, _⟩ => show win2_1.index t (0 : Fin 2) * 5000 + 1 * r.val = R.val; omega
  | ⟨1, _⟩ => show win2_1.index t (1 : Fin 2) * 64 + 1 * k.val = k.val; omega

/-- Point `t`'s block of the first weight matrix is the whole matrix. -/
theorem read_blk2_2 (G : (⟨S64x64, .f32⟩ : BufTy).Contents (Elt Ideal)) (hA : V c (Pipeline.arrRef spec2 2) = G)
    (t : Fin cfg2.N) (k : Fin 64) (j : Fin 64) :
    iblk2 V c 2 t (ix2 k j) = G (ix2 k j) := by
  obtain ⟨-, -, -, -, e20, e21, e30, e31, -⟩ := idx_facts2 t
  show V c (Pipeline.arrRef spec2 2) (((cfg2.win 2).blk t).view.emb (ix2 k j)) = _
  rw [hA]
  refine congrArg G (funext fun a => Fin.ext ?_)
  match a with
  | ⟨0, _⟩ => show win2_2.index t (0 : Fin 2) * 64 + 1 * k.val = k.val; omega
  | ⟨1, _⟩ => show win2_2.index t (1 : Fin 2) * 64 + 1 * j.val = j.val; omega

/-- Point `t`'s block of the second weight matrix is the whole matrix. -/
theorem read_blk2_3 (G : (⟨S64x64, .f32⟩ : BufTy).Contents (Elt Ideal)) (hA : V c (Pipeline.arrRef spec2 3) = G)
    (t : Fin cfg2.N) (k : Fin 64) (j : Fin 64) :
    iblk2 V c 3 t (ix2 k j) = G (ix2 k j) := by
  obtain ⟨-, -, -, -, e20, e21, e30, e31, -⟩ := idx_facts2 t
  show V c (Pipeline.arrRef spec2 3) (((cfg2.win 3).blk t).view.emb (ix2 k j)) = _
  rw [hA]
  refine congrArg G (funext fun a => Fin.ext ?_)
  match a with
  | ⟨0, _⟩ => show win2_3.index t (0 : Fin 2) * 64 + 1 * k.val = k.val; omega
  | ⟨1, _⟩ => show win2_3.index t (1 : Fin 2) * 64 + 1 * j.val = j.val; omega

/-- Point `t`'s block of the bias row is the whole row: the bias vector laid out as one row. -/
theorem read_blk2_4 (b : (⟨Cert.ReferenceIdeal.S64, .f32⟩ : BufTy).Contents (Elt Ideal))
    (hA : V c (Pipeline.arrRef spec2 4) = shapeCast S1x64 b Facts₀.shapeCasts_S64_S1x64) (t : Fin cfg2.N) (j : Fin 64) :
    iblk2 V c 4 t (ix2 (0 : Fin 1) j) = b (ix1 j) := by
  obtain ⟨-, -, -, -, -, -, -, -, e40, e41, -⟩ := idx_facts2 t
  show V c (Pipeline.arrRef spec2 4) (((cfg2.win 4).blk t).view.emb (ix2 (0 : Fin 1) j)) = _
  rw [hA]
  refine Eq.trans (congrArg (shapeCast S1x64 b Facts₀.shapeCasts_S64_S1x64) (funext fun a => Fin.ext ?_))
    (shapeCast_a_1a_apply b Facts₀.shapeCasts_S64_S1x64 (0 : Fin 1) j)
  match a with
  | ⟨0, _⟩ => show win2_4.index t (0 : Fin 2) * 1 + 1 * 0 = 0; omega
  | ⟨1, _⟩ => show win2_4.index t (1 : Fin 2) * 64 + 1 * j.val = j.val; omega

/-- Point `t`'s block of the output array, read from any contents `G` of that array, holds at `(r, j)` the entry of `G` at
    row `5000·t + r`, column `j`. -/
theorem read_out_blk2 (G : (⟨S100000x64, .f32⟩ : BufTy).Contents (Elt Ideal)) (t : Fin cfg2.N) (r : Fin 5000) (j : Fin 64)
    (R : Fin 100000) (hR : R.val = 5000 * t.val + r.val) :
    ((cfg2.win 5).blk t).view.read (Elt Ideal) G (ix2 r j) = G (ix2 R j) := by
  obtain ⟨-, -, -, -, -, -, -, -, -, -, e50, e51⟩ := idx_facts2 t
  show G (((cfg2.win 5).blk t).view.emb (ix2 r j)) = _
  refine congrArg G (funext fun a => Fin.ext ?_)
  match a with
  | ⟨0, _⟩ => show win2_5.index t (0 : Fin 2) * 5000 + 1 * r.val = R.val; omega
  | ⟨1, _⟩ => show win2_5.index t (1 : Fin 2) * 64 + 1 * j.val = j.val; omega

/-! ## What a point writes back, and the cover -/

/-- WHAT POINT `t` WRITES BACK is rows `5000·t … 5000·t + 4999` of the reference's third layer. -/
theorem flushed2_eq
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S64x64, .f32⟩ : BufTy).Contents (Elt Ideal))
    (hA0 : V c (Pipeline.arrRef spec2 0) = val_main_v66 (F := Ideal) x0 x1 x2 x3 x4 x5 x6 x7)
    (hA1 : V c (Pipeline.arrRef spec2 1) = val_main_v54 (F := Ideal) x0 x1 x2 x3 x4 x5 x6 x7)
    (hA2 : V c (Pipeline.arrRef spec2 2) = val_main_v67 (F := Ideal) x8)
    (hA3 : V c (Pipeline.arrRef spec2 3) = val_main_v72 (F := Ideal) x10)
    (hA4 : V c (Pipeline.arrRef spec2 4) = shapeCast S1x64 x9 Facts₀.shapeCasts_S64_S1x64) (t : Fin cfg2.N) :
    (dat2 (F := Ideal) V c).flushed 5 t
      = ((cfg2.win 5).blk t).view.read (Elt Ideal) (val_main_v75 (F := Ideal) x0 x1 x2 x3 x4 x5 x6 x7 x8 x9 x10) := by
  show (cfg2.win 5).cut (grid2.coords t) ((dat2 (F := Ideal) V c).after 5 t) = _
  rw [after2_5]
  unfold out2_5
  rw [View.canon_unit_zero hz2]
  simp only [View.ld_unit_zero (S := S5000x64) hz2, View.ld_unit_zero (S := S64x64) hz2, View.ld_unit_zero (S := S1x64) hz2]
  funext y
  obtain ⟨r, j, rfl⟩ : ∃ (r : Fin 5000) (j : Fin 64), y = ix2 r j := ⟨y 0, y 1, eq_ix2 y⟩
  have ht : t.val < 20 := Nat.lt_of_lt_of_eq t.isLt N_2
  -- the array's row under row `r` of point `t`'s blocks
  obtain ⟨R, hR⟩ : ∃ R : Fin 100000, R.val = 5000 * t.val + r.val := ⟨⟨5000 * t.val + r.val, by omega⟩, rfl⟩
  exact (Cert.Layer2.point x0 x1 x2 x3 x4 x5 x6 x7 x8 x9 x10 (iblk2 V c 0 t) (iblk2 V c 1 t) (iblk2 V c 2 t) (iblk2 V c 3 t) (iblk2 V c 4 t) R r j
    (fun k => read_blk2_0 V c (val_main_v66 (F := Ideal) x0 x1 x2 x3 x4 x5 x6 x7) hA0 t r k R hR)
    (fun k => read_blk2_1 V c (val_main_v54 (F := Ideal) x0 x1 x2 x3 x4 x5 x6 x7) hA1 t r k R hR)
    (fun k => read_blk2_2 V c (val_main_v67 (F := Ideal) x8) hA2 t k j)
    (fun k => read_blk2_3 V c (val_main_v72 (F := Ideal) x10) hA3 t k j)
    (read_blk2_4 V c x9 hA4 t j)).trans
    (read_out_blk2 (val_main_v75 (F := Ideal) x0 x1 x2 x3 x4 x5 x6 x7 x8 x9 x10) t r j R hR).symm

/-- An entry of the output array is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v42).slice (win2_5.rect t)).set ↔ _
  rw [View.set_slice_whole, Rect.mem_set_unit]
  exact Iff.rfl

/-- The 20 row blocks cover the output array: row `R` is in the block of point `R / 5000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, htv⟩ : ∃ t : Fin cfg2.N, t.val = (i 0).val / 5000 :=
    ⟨⟨(i 0).val / 5000, by rw [show cfg2.N = 20 from N_2]; omega⟩, rfl⟩
  obtain ⟨-, -, -, -, -, -, -, -, -, -, e50, e51⟩ := idx_facts2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The output array after the region is the reference's third layer, when the region's five input arrays hold the
    aggregated second-layer output, the second-layer output, the two transposed weight matrices and the bias row. -/
theorem region2_out
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S64x64, .f32⟩ : BufTy).Contents (Elt Ideal))
    (hA0 : V c (Pipeline.arrRef spec2 0) = val_main_v66 (F := Ideal) x0 x1 x2 x3 x4 x5 x6 x7)
    (hA1 : V c (Pipeline.arrRef spec2 1) = val_main_v54 (F := Ideal) x0 x1 x2 x3 x4 x5 x6 x7)
    (hA2 : V c (Pipeline.arrRef spec2 2) = val_main_v67 (F := Ideal) x8)
    (hA3 : V c (Pipeline.arrRef spec2 3) = val_main_v72 (F := Ideal) x10)
    (hA4 : V c (Pipeline.arrRef spec2 4) = shapeCast S1x64 x9 Facts₀.shapeCasts_S64_S1x64) :
    (dat2 (F := Ideal) V c).arrAt 5 cfg2.N = val_main_v75 (F := Ideal) x0 x1 x2 x3 x4 x5 x6 x7 x8 x9 x10 := by
  exact (dat2 (F := Ideal) V c).arrAt_eq_of_cover 5 (val_main_v75 (F := Ideal) x0 x1 x2 x3 x4 x5 x6 x7 x8 x9 x10)
    (fun t _ => flushed2_eq V c x0 x1 x2 x3 x4 x5 x6 x7 x8 x9 x10 hA0 hA1 hA2 hA3 hA4 t) cover2

end Cert.KernelIdeal.KVal

end
-- ==== Proof.KFinal.lean ====
/-
  The kernel program's result as a function of its arguments: the reference's result.

  The third region leaves the reference's third layer in its output array. The host operations after it apply the
  classifier (a matrix product with the transposed weight row, plus the bias) and lay the `[100000, 1]` result out as a
  vector: the same operations as the reference's last stage, on the same values.
-/
import proofs.«421982_j91018946937012_1_alg».proof.Proof.Gen.KernelIdeal.Frame
import proofs.«421982_j91018946937012_1_alg».proof.Proof.Gen.ReferenceIdeal.Read
import proofs.«421982_j91018946937012_1_alg».proof.Proof.SrcOk
import proofs.«421982_j91018946937012_1_alg».proof.Proof.KStage2
import proofs.«421982_j91018946937012_1_alg».proof.Proof.KRegion2
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The third region's output array holds the reference's third layer. -/
theorem W10_v42 (hs : SrcOk (m ((c : Thread nD τ).loc main_arg1))) :
    W10 m ρ c (Proc.devRef .tc main_v42)
      = Cert.ReferenceIdeal.Read.val_main_v75 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  (W10_arr m ρ c 5).trans (region2_out (V9 m ρ) c _ _ _ _ _ _ _ _ _ _ _
    (W9_v38 m ρ c hs) (W9_v32 m ρ c hs) (W9_v39 m ρ c) (W9_v40 m ρ c) (W9_v41 m ρ c))

/-- The classifier's argument arrays are as launched at the third region's exit: the region's arrays are none of them. -/
theorem W10_arg (b : Ref sig .tc) (hb : b = main_arg11 ∨ b = main_arg12) :
    W10 m ρ c (Proc.devRef .tc b) = m ((c : Thread nD τ).loc b) := by
  rcases hb with rfl | rfl <;>
    exact (W10_of_ne m ρ c _ (by decide)).trans (W9_arg m ρ c _ (by simp))

/-- With every source index in range, the result buffer at the last boundary holds the reference's result of the
    launch contents of the thirteen arguments. -/
theorem final (hs : SrcOk (m ((c : Thread nD τ).loc main_arg1))) :
    W11 m ρ c (Proc.devRef .tc main_v48)
      = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e42 := W10_v42 m ρ c hs
  have e11 := W10_arg m ρ c main_arg11 (Or.inl rfl)
  have e12 := W10_arg m ρ c main_arg12 (Or.inr rfl)
  show StableHlo.after hostOps3 (W10 m ρ c) (Proc.devRef .tc main_v48) = _
  generalize W10 m ρ c = W at e42 e11 e12 ⊢
  after_results
  rw [e42, e11, e12]
  rfl

end Cert.KernelIdeal.KVal

end
-- ==== Proof.SrcRange.lean ====
/-
  From the precondition to the range of the source indices.

  The precondition is a conjunction: every float input finite, and every entry of row 0 of the edge list (the source
  node of each edge) in `[-100000, 100000)`, the range in which indexing an axis of length 100000 is defined (a negative
  index counts from the end). The last conjunct is the outermost `and` of the printed predicate; nothing of the
  finiteness part is opened.
-/
import proofs.«421982_j91018946937012_1_alg».proof.Pre_finite_inputs
import proofs.«421982_j91018946937012_1_alg».proof.Proof.Gen.Pre_finite_inputs
import Idealize.ShloMosaic.Lib.ValueIdx
import Idealize.ShloMosaic.Lib.StableHlo.Predicate
import Idealize.ShloMosaic.Lib.ReduceAll

noncomputable section

namespace Cert.SrcRange

open Idealize.ShloMosaic Idealize.ShloMosaic.ValueIdx Cert.Pre_finite_inputs Cert.Pre_finite_inputs.Facts

/-- The source-index vector: row 0 of the `[2, 1600000]` edge list, as a vector. -/
abbrev src (a1 : IVec S2x1600000 32) : IVec S1600000 32 :=
  shapeCast S1600000 (extractStridedSlice S1x1600000 ![0, 0] a1 slices_S2x1600000_S1x1600000_0_0) shapeCasts_S1x1600000_S1600000

/-- The scalar shape has one index. -/
instance : Subsingleton S_.Idx := ⟨fun a b => funext fun d => d.elim0⟩

/-- Under the precondition every source index lies in `[-100000, 100000)`, read as a signed integer. -/
theorem src_range (a0 : FVec Ideal S100000x128 .f32) (a1 : IVec S2x1600000 32) (a2 : FVec Ideal S64x128 .f32)
    (a3 : FVec Ideal S64 .f32) (a4 : FVec Ideal S64x128 .f32) (a5 : FVec Ideal S64x64 .f32) (a6 : FVec Ideal S64 .f32)
    (a7 : FVec Ideal S64x64 .f32) (a8 : FVec Ideal S64x64 .f32) (a9 : FVec Ideal S64 .f32) (a10 : FVec Ideal S64x64 .f32)
    (a11 : FVec Ideal S1x64 .f32) (a12 : FVec Ideal S1 .f32)
    (h : fn (F := Ideal) a0 a1 a2 a3 a4 a5 a6 a7 a8 a9 a10 a11 a12 = fun _ => 1#1) (t : Fin 1600000) :
    -(100000 : Int) ≤ (src a1 (ix1 t)).toInt ∧ (src a1 (ix1 t)).toInt < 100000 := by
  -- the predicate at the scalar shape's one index
  have h1 := congrFun h ix0
  dsimp only [fn, fn_part1, fn_part2, fn_part3, fn_part4] at h1
  -- the outermost `and`: its second operand is the reduce by `and` of the two range tests over the whole vector
  have h2 := (IntOp.andi_eq_one.mp h1).2
  -- a reduce by `and` over every axis that is 1 met a 1 at every position, here at `t`
  have h3 := Host.reduce_andi_all _ _ _ _ _ h2 (ix1 t)
  obtain ⟨hge, hlt⟩ := IntOp.andi_eq_one.mp h3
  -- the two signed comparisons against the words of -100000 and of 100000
  have hlo : (4294867296#32 : BitVec 32).toInt ≤ (src a1 (ix1 t)).toInt := IntOp.cmpi_sge.mp hge
  have hhi : (src a1 (ix1 t)).toInt < (100000#32 : BitVec 32).toInt := IntOp.cmpi_slt.mp hlt
  have e1 : (4294867296#32 : BitVec 32).toInt = -100000 := by decide
  have e2 : (100000#32 : BitVec 32).toInt = 100000 := by decide
  omega

end Cert.SrcRange

end
-- ==== Proof.lean ====
/-
  The certificate's assembly: a three-layer mean-aggregation graph network with a linear head, its kernel program
  against its reference, at the extended reals.

  Both programs take node features `x : [100000, 128]`, an edge list `[2, 1600000]` (row 0 the source node of each
  edge, row 1 its destination), three layers' weights `Wl, Wr` and bias `b`, and a head `Wo : [1, 64]`, `bo : [1]`.
  With `h₀ = x`, each layer takes the rows of `hₗ` at the edges' sources, adds them up at the edges' destinations,
  scales row `i` by `1 / max(deg i, 1)` (`deg` the number of edges into `i`), and applies
  `hₗ₊₁ = max (agg · Wlᵀ + hₗ · Wrᵀ + b) 0`; the result is `h₃ · Woᵀ + bo`, one number per node.

  The reference does all of it with array operations; a negative source index counts from the end of the axis, and a
  row read outside the axis is clamped into it. The kernel program keeps the gathers, the scatters, the degrees and
  the head as array operations, reads a row outside the axis as a not-a-number row instead of clamping, and computes
  each layer's `max (agg · Wlᵀ + hₗ · Wrᵀ + b) 0` in twenty blocks of 5000 rows, the matrix products on operands narrowed
  to sixteen bits and accumulated from zero.

  At the extended reals a change of float format is the identity and a matrix product into a zero accumulator is the
  plain sum over the contraction, so a block's entry and the reference's entry of the same row are the same three-term
  sum, the kernel adding the two products first and the reference adding the bias to the first product first; addition
  on the extended reals is commutative and associative, so the two orders agree. The blocks tile the rows, which gives
  each layer as a whole array; the degrees, the scatters and the head are the same operations on both sides.

  The one place the two programs differ before any arithmetic is the gather's reading of a source index outside
  `[-100000, 100000)`. The precondition is a conjunction of "every float input is finite" and "every source index lies
  in `[-100000, 100000)`"; only the second conjunct is used, and only there: with every source index in that range the
  index, once a negative one has been moved up by 100000, lies in `[0, 100000)`, so the kernel program's fill never
  applies and the reference's clamp never moves it, and both read the same row. Nothing uses finiteness: the equality
  holds entry by entry for infinite inputs too.

  The claims: each program runs to the end with its arguments unchanged (the three frames); the kernel program's text
  read at the extended reals was rewritten nowhere (the preservation claim is `True`); and from launch memories that
  agree on the thirteen arguments the two programs end with equal results, the common value being the reference's
  result as a function of the arguments.
-/
import proofs.«421982_j91018946937012_1_alg».proof.Defs
import proofs.«421982_j91018946937012_1_alg».proof.Proof.Gen.Kernel
import proofs.«421982_j91018946937012_1_alg».proof.Proof.Gen.Kernel.Skeleton
import proofs.«421982_j91018946937012_1_alg».proof.Proof.Gen.Kernel.Launch
import proofs.«421982_j91018946937012_1_alg».proof.Proof.Gen.Kernel.Points
import proofs.«421982_j91018946937012_1_alg».proof.Proof.Gen.Kernel.Frame
import proofs.«421982_j91018946937012_1_alg».proof.Proof.Gen.KernelIdeal
import proofs.«421982_j91018946937012_1_alg».proof.Proof.Gen.KernelIdeal.Skeleton
import proofs.«421982_j91018946937012_1_alg».proof.Proof.Gen.KernelIdeal.Launch
import proofs.«421982_j91018946937012_1_alg».proof.Proof.Gen.KernelIdeal.Points
import proofs.«421982_j91018946937012_1_alg».proof.Proof.Gen.KernelIdeal.Frame
import proofs.«421982_j91018946937012_1_alg».proof.Proof.Gen.ReferenceIdeal
import proofs.«421982_j91018946937012_1_alg».proof.Proof.Gen.ReferenceIdeal.Run
import proofs.«421982_j91018946937012_1_alg».proof.Proof.Gen.ReferenceIdeal.Read
import proofs.«421982_j91018946937012_1_alg».proof.Proof.Gen.Pre_finite_inputs
import proofs.«421982_j91018946937012_1_alg».proof.Proof.KernelRun
import proofs.«421982_j91018946937012_1_alg».proof.Proof.KFinal
import proofs.«421982_j91018946937012_1_alg».proof.Proof.SrcRange
import proofs.«421982_j91018946937012_1_alg».proof.Proof.SrcOk
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## From the precondition to the range of the source indices -/

/-- Under the precondition every source index of the edge list lies in `[-100000, 100000)`, on every device: the
    precondition's second conjunct, stated over the reference's own source-index vector. -/
theorem srcOk (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KVal.SrcOk (m ((c.tc : Thread Cert.KernelIdeal.nD Cert.KernelIdeal.τ).loc Cert.KernelIdeal.main_arg1)) := by
  intro t
  exact Cert.SrcRange.src_range _ _ _ _ _ _ _ _ _ _ _ _ _ (hpre c) t

/-! ## The common value -/

/-- The value both programs end with on device `c`: the reference's result as a function of the thirteen arguments the
    kernel program was launched with. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v48) :=
  Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

/-! ## The claims -/

/-- The kernel program as printed runs to the end and leaves its arguments as launched. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for its reading at the extended reals. -/
theorem preserves : Cert.preserves_Kernel_KernelIdeal := trivial

/-- From launch memories that agree on the arguments, the kernel program ends with the last boundary's contents of
    its result buffer, which with every source index in range is the reference's result of the arguments; the reference
    ends with its result of its own arguments, which are the same arguments. -/
theorem algebraic : Cert.algebraic_KernelIdeal_ReferenceIdeal := by
  intro m ρ m' ρ' hpre hagree
  refine ⟨common m, ?_, ?_⟩
  · exact (θ_run Cert.KernelIdeal.defs _ _).mono
      (fun r h c => ⟨(h c).1.trans (Cert.KernelIdeal.KVal.final m ρ c (srcOk m hpre c)), (h c).2⟩)
      (Cert.KernelIdeal.RunValue.run_valued (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v81_eq, e0, e1, e2, e3, e4, e5, e6, e7, e8, e9, e10, e11, e12]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
